-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v50 : IVec S100000 1) : IVec S_ 1 :=
  let main_c_19 : IVec S_ 1 := constantI S_ 1 1#1
  let main_v51 : IVec S_ 1 := (fun x v => Host.reduce IntOp.andi x v reducesTo_S100000_S_d0 h_S_) main_v50 main_c_19
  let main_v52 : IVec S_ 1 := andi main_v48 main_v51
  main_v52

def fn_part2 {F : FTy → Type} [FloatOps F] (main_arg2 : FVec F S100000 .f32) (main_arg8 : FVec F S4 .f32) (main_arg9 : FVec F S128 .f32) (main_arg10 : FVec F S128 .f32) (main_v33 : IVec S_ 1) : IVec S_ 1 :=
  let main_v34 : FVec F S4 .f32 := Host.absf main_arg8
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_cst_18 : FVec F S_ .f32 := constant S_ .f32 0x00000000#32
  let main_v49 : FVec F S100000 .f32 := broadcastInDim S100000 ![] bcast_S_S100000 main_cst_18
  let main_v50 : IVec S100000 1 := cmpf .une main_arg2 main_v49
  fn_part3 (F := F) main_v48 main_v50

def fn_part1 {F : FTy → Type} [FloatOps F] (main_arg2 : FVec F S100000 .f32) (main_arg5 : FVec F S128x128 .f32) (main_arg6 : FVec F S128x128 .f32) (main_arg7 : FVec F S128 .f32) (main_arg8 : FVec F S4 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_arg9 main_arg10 main_v33

def fn {F : FTy → Type} [FloatOps F] (main_arg0 : FVec F S100000x128 .f32) (main_arg1 : IVec S2x1600000 32) (main_arg2 : FVec F S100000 .f32) (main_arg3 : FVec F S128x128 .f32) (main_arg4 : FVec F S128x128 .f32) (main_arg5 : FVec F S128x128 .f32) (main_arg6 : FVec F S128x128 .f32) (main_arg7 : FVec F S128 .f32) (main_arg8 : FVec F S4 .f32) (main_arg9 : FVec F S128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S1600000x1 : Shape := ⟨2, ![1600000, 1]⟩
abbrev S1600000x128 : Shape := ⟨2, ![1600000, 128]⟩
abbrev S1 : Shape := ⟨1, ![1]⟩
abbrev S1x128 : Shape := ⟨2, ![1, 128]⟩
abbrev S4000x128 : Shape := ⟨2, ![4000, 128]⟩
abbrev S4000x1 : Shape := ⟨2, ![4000, 1]⟩
abbrev S4000 : Shape := ⟨1, ![4000]⟩

abbrev nBuf : Space → Nat
  | .hbm => 90
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S4, .f32⟩
  | .hbm, ⟨9, _⟩ => ⟨S128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x128, .bf16⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .bf16⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .bf16⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .bf16⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S4, .f32⟩
  | .hbm, ⟨52, _⟩ => ⟨S4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S_, .f32⟩
  | .hbm, ⟨57, _⟩ => ⟨S4, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S1, .f32⟩
  | .hbm, ⟨63, _⟩ => ⟨S_, .f32⟩
  | .hbm, ⟨64, _⟩ => ⟨S128x128, .f32⟩
  | .hbm, ⟨65, _⟩ => ⟨S128x128, .f32⟩
  | .hbm, ⟨66, _⟩ => ⟨S128x128, .f32⟩
  | .hbm, ⟨67, _⟩ => ⟨S128x128, .bf16⟩
  | .hbm, ⟨68, _⟩ => ⟨S1, .f32⟩
  | .hbm, ⟨69, _⟩ => ⟨S_, .f32⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S128x128, .bf16⟩
  | .hbm, ⟨74, _⟩ => ⟨S1, .f32⟩
  | .hbm, ⟨75, _⟩ => ⟨S_, .f32⟩
  | .hbm, ⟨76, _⟩ => ⟨S128x128, .f32⟩
  | .hbm, ⟨77, _⟩ => ⟨S128x128, .f32⟩
  | .hbm, ⟨78, _⟩ => ⟨S128x128, .f32⟩
  | .hbm, ⟨79, _⟩ => ⟨S128x128, .bf16⟩
  | .hbm, ⟨80, _⟩ => ⟨S1, .f32⟩
  | .hbm, ⟨81, _⟩ => ⟨S_, .f32⟩
  | .hbm, ⟨82, _⟩ => ⟨S128x128, .f32⟩
  | .hbm, ⟨83, _⟩ => ⟨S128x128, .f32⟩
  | .hbm, ⟨84, _⟩ => ⟨S128x128, .f32⟩
  | .hbm, ⟨85, _⟩ => ⟨S128x128, .bf16⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x1, .f32⟩
  | .local _ .vmem, ⟨7, _⟩ => ⟨S4000x1, .f32⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S4000x128, .f32⟩
  | .local _ .vmem, ⟨16, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  shapeCasts_S100000_S100000x1 : S100000.ShapeCasts S100000x1
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S4 : S_.BroadcastsInDim S4 (![] : Fin 0 → Fin S4.rank)
  slices_S4_S1_0 : S4.Slices ![0] S1
  shapeCasts_S1_S_ : S1.ShapeCasts S_
  transposes_S128x128_S128x128_1_0 : S128x128.Transposes [1, 0] S128x128
  bcast_S_S128x128 : S_.BroadcastsInDim S128x128 (![] : Fin 0 → Fin S128x128.rank)
  slices_S4_S1_1 : S4.Slices ![1] S1
  slices_S4_S1_2 : S4.Slices ![2] S1
  slices_S4_S1_3 : S4.Slices ![3] S1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S100000x128.size a
  hwx0_11 : ∀ i : grid0.Coords, EltTy.bits .f32 = 32 ∨ (Rect.block (s := S100000x128) S4000x128.size (cc0_transform_11 i) (hinb0_11 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v64) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v65) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v66) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v67) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v68) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1 : Shape := ⟨1, ![1]⟩
abbrev S1x128 : Shape := ⟨2, ![1, 128]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x1600000, .i32⟩
  | 2 => ⟨S100000, .f32⟩
  | 3 => ⟨S128x128, .f32⟩
  | 4 => ⟨S128x128, .f32⟩
  | 5 => ⟨S128x128, .f32⟩
  | 6 => ⟨S128x128, .f32⟩
  | 7 => ⟨S128, .f32⟩
  | 8 => ⟨S4, .f32⟩
  | 9 => ⟨S128, .f32⟩
  | 10 => ⟨S128, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S100000x1, .f32⟩
  | 29 => ⟨S100000x128, .f32⟩
  | 30 => ⟨S100000x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S100000x1, .f32⟩
  | 45 => ⟨S100000x128, .f32⟩
  | 46 => ⟨S100000x128, .f32⟩
  | 47 => ⟨S100000x128, .f32⟩
  | 48 => ⟨S4, .f32⟩
  | 49 => ⟨S4, .f32⟩
  | 50 => ⟨S_, .f32⟩
  | 51 => ⟨S4, .f32⟩
  | 52 => ⟨S4, .f32⟩
  | 53 => ⟨S_, .f32⟩
  | 54 => ⟨S4, .f32⟩
  | 55 => ⟨S4, .f32⟩
  | 56 => ⟨S_, .f32⟩
  | 57 => ⟨S4, .f32⟩
  | 58 => ⟨S4, .f32⟩
  | 59 => ⟨S1, .f32⟩
  | 60 => ⟨S_, .f32⟩
  | 61 => ⟨S128x128, .f32⟩
  | 62 => ⟨S100000x128, .f32⟩
  | 63 => ⟨S100000x128, .f32⟩
  | 64 => ⟨S100000x128, .f32⟩
  | 65 => ⟨S1, .f32⟩
  | 66 => ⟨S_, .f32⟩
  | 67 => ⟨S128x128, .f32⟩
  | 68 => ⟨S100000x128, .f32⟩
  | 69 => ⟨S100000x128, .f32⟩
  | 70 => ⟨S100000x128, .f32⟩
  | 71 => ⟨S100000x128, .f32⟩
  | 72 => ⟨S1, .f32⟩
  | 73 => ⟨S_, .f32⟩
  | 74 => ⟨S128x128, .f32⟩
  | 75 => ⟨S100000x128, .f32⟩
  | 76 => ⟨S100000x128, .f32⟩
  | 77 => ⟨S100000x128, .f32⟩
  | 78 => ⟨S100000x128, .f32⟩
  | 79 => ⟨S1, .f32⟩
  | 80 => ⟨S_, .f32⟩
  | 81 => ⟨S128x128, .f32⟩
  | 82 => ⟨S100000x128, .f32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000, .f32⟩
  | 91 => ⟨S100000x1, .f32⟩
  | 92 => ⟨S_, .f32⟩
  | 93 => ⟨S100000x1, .f32⟩
  | 94 => ⟨S100000x1, .f32⟩
  | 95 => ⟨S_, .i32⟩
  | 96 => ⟨S_, .f32⟩
  | 97 => ⟨S100000, .f32⟩
  | 98 => ⟨S100000x1, .f32⟩
  | 99 => ⟨S_, .f32⟩
  | 100 => ⟨S100000x1, .f32⟩
  | 101 => ⟨S100000x1, .f32⟩
  | 102 => ⟨S100000x128, .f32⟩
  | 103 => ⟨S100000x128, .f32⟩
  | 104 => ⟨S100000x128, .f32⟩
  | 105 => ⟨S_, .f32⟩
  | 106 => ⟨S_, .f32⟩
  | 107 => ⟨S_, .f32⟩
  | 108 => ⟨S_, .f32⟩
  | 109 => ⟨S100000, .f32⟩
  | 110 => ⟨S100000x1, .f32⟩
  | 111 => ⟨S100000x1, .f32⟩
  | 112 => ⟨S100000x1, .f32⟩
  | 113 => ⟨S_, .f32⟩
  | 114 => ⟨S_, .i1⟩
  | 115 => ⟨S_, .f32⟩
  | 116 => ⟨S_, .f32⟩
  | 117 => ⟨S100000x1, .f32⟩
  | 118 => ⟨S100000x1, .f32⟩
  | 119 => ⟨S100000x128, .f32⟩
  | 120 => ⟨S100000x128, .f32⟩
  | 121 => ⟨S_, .f32⟩
  | 122 => ⟨S100000x1, .f32⟩
  | 123 => ⟨S100000x1, .f32⟩
  | 124 => ⟨S100000x1, .f32⟩
  | 125 => ⟨S100000x128, .f32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_7 : Ref sig .tc := ⟨.hbm, 89, rfl⟩
abbrev main_v69 : Ref sig .tc := ⟨.hbm, 90, rfl⟩
abbrev main_v70 : Ref sig .tc := ⟨.hbm, 91, rfl⟩
abbrev main_cst_8 : Ref sig .tc := ⟨.hbm, 92, rfl⟩
abbrev main_v71 : Ref sig .tc := ⟨.hbm, 93, rfl⟩
abbrev main_v72 : Ref sig .tc := ⟨.hbm, 94, rfl⟩
abbrev main_c_9 : Ref sig .tc := ⟨.hbm, 95, rfl⟩
abbrev main_call0_cst : Ref sig .tc := ⟨.hbm, 96, rfl⟩
abbrev main_call0_v0 : Ref sig .tc := ⟨.hbm, 97, rfl⟩
abbrev main_call0_v1 : Ref sig .tc := ⟨.hbm, 98, rfl⟩
abbrev main_call0_cst_0 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_cst_1 : Ref sig .tc := ⟨.hbm, 106, rfl⟩
abbrev main_call0_v8 : Ref sig .tc := ⟨.hbm, 107, rfl⟩
abbrev main_call0_cst_2 : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_call0_v12 : Ref sig .tc := ⟨.hbm, 112, rfl⟩
abbrev main_call0_cst_3 : Ref sig .tc := ⟨.hbm, 113, rfl⟩
abbrev main_call0_v13 : Ref sig .tc := ⟨.hbm, 114, rfl⟩
abbrev main_call0_cst_4 : Ref sig .tc := ⟨.hbm, 115, rfl⟩
abbrev main_call0_call0_v0 : Ref sig .tc := ⟨.hbm, 116, rfl⟩
abbrev main_call0_call0_v1 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_10 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S4 : S_.BroadcastsInDim S4 (![] : Fin 0 → Fin S4.rank)
  slices_S4_S1_0 : S4.Slices ![0] S1
  shapeCasts_S1_S_ : S1.ShapeCasts S_
  transposes_S128x128_S128x128_1_0 : S128x128.Transposes [1, 0] S128x128
  slices_S4_S1_1 : S4.Slices ![1] S1
  slices_S4_S1_2 : S4.Slices ![2] S1
  slices_S4_S1_3 : S4.Slices ![3] S1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RefTerm.lean ====
/-
  The reference's result as one composed term of its argument arrays, named piece by piece: the edge endpoints, the
  gather-then-scatter-add aggregation `agg`, the mean `nb = agg / deg`, the four branch scales, the scaled products, the
  pre-normalisation array `zArr` and its LayerNorm `lnArr`. Nothing is proved here; the run module shows the
  program's result buffer holds `refTerm`, and the value module reads it row by row.
-/
import proofs.«422799_j39273180955310_3_alg».proof.Proof.Gen.ReferenceIdeal

noncomputable section

namespace Cert.ReferenceIdeal.RefValue

open Cert.ReferenceIdeal Cert.ReferenceIdeal.Gen Idealize.ShloMosaic Idealize.ShloMosaic.TcCoe

variable {F : FTy → Type} [FloatOps F]

/-- Row `r` of the edge list, as a vector of 1 600 000 node numbers. -/
def srcRaw (e : IVec S2x1600000 32) : IVec S1600000 32 :=
  shapeCast S1600000 (extractStridedSlice S1x1600000 ![0, 0] e slices_S2x1600000_S1x1600000_0_0) shapeCasts_S1x1600000_S1600000
def dstRaw (e : IVec S2x1600000 32) : IVec S1600000 32 :=
  shapeCast S1600000 (extractStridedSlice S1x1600000 ![1, 0] e slices_S2x1600000_S1x1600000_1_0) shapeCasts_S1x1600000_S1600000

/-- The gather's index column: a negative source number wraps by the node count. -/
def srcIdx (e : IVec S2x1600000 32) : IVec S1600000x1 32 :=
  broadcastInDim S1600000x1 ![0] bcast_S1600000_S1600000x1_0
    (select (cmpi .slt (srcRaw e) (broadcastInDim S1600000 ![] bcast_S_S1600000 (constantI S_ 32 0#32)))
      (addi (srcRaw e) (broadcastInDim S1600000 ![] bcast_S_S1600000 (constantI S_ 32 100000#32))) (srcRaw e))
/-- The scatter's index column. -/
def dstIdx (e : IVec S2x1600000 32) : IVec S1600000x1 32 :=
  broadcastInDim S1600000x1 ![0] bcast_S1600000_S1600000x1_0 (dstRaw e)

/-- Sum over incoming edges: row `dst` of the result collects row `src` of `x`, from zero. -/
def agg (e : IVec S2x1600000 32) (x : FVec F S100000x128 .f32) : FVec F S100000x128 .f32 :=
  Host.scatterAdd scatter_S100000x128_S1600000x1_S1600000x128_1_0_0_1
    (broadcastInDim S100000x128 ![] bcast_S_S100000x128 (constant S_ .f32 0x00000000#32)) (dstIdx e)
    (Host.gather gather_S100000x128_S1600000x1_S1600000x128_1_0_n_n_0_1_1128 x (srcIdx e))

/-- The degree column spread over the 128 features. -/
def degB (deg : FVec F S100000 .f32) : FVec F S100000x128 .f32 :=
  broadcastInDim S100000x128 ![0, 1] bcast_S100000x1_S100000x128_0_1 (broadcastInDim S100000x1 ![0] bcast_S100000_S100000x1_0 deg)

/-- The mean over incoming edges. -/
def nb (S : FVec F S100000x128 .f32) (deg : FVec F S100000 .f32) : FVec F S100000x128 .f32 := Host.divf S (degB deg)

/-- The four branch scales, twice the logistic of the logits. -/
def scales (l : FVec F S4 .f32) : FVec F S4 .f32 :=
  mulf (broadcastInDim S4 ![] bcast_S_S4 (constant S_ .f32 0x40000000#32))
    (Host.divf (broadcastInDim S4 ![] bcast_S_S4 (constant S_ .f32 0x3F800000#32))
      (addf (broadcastInDim S4 ![] bcast_S_S4 (constant S_ .f32 0x3F800000#32)) (Host.exp (Host.negf l))))

/-- One scale as a rank-0 array. -/
def scaleAt (l : FVec F S4 .f32) (off : Fin S4.rank → Nat) (hs : S4.Slices off S1) : FVec F S_ .f32 :=
  shapeCast S_ (extractStridedSlice S1 off (scales l) hs) shapeCasts_S1_S_

def wT (W : FVec F S128x128 .f32) : FVec F S128x128 .f32 := transpose S128x128 [1, 0] W transposes_S128x128_S128x128_1_0

/-- A branch: the scale times the product with the transposed weight. -/
def branch (s : FVec F S_ .f32) (x : FVec F S100000x128 .f32) (W : FVec F S128x128 .f32) : FVec F S100000x128 .f32 :=
  mulf (broadcastInDim S100000x128 ![] bcast_S_S100000x128 s)
    (Host.dotGeneral dot_S100000x128_S128x128_S100000x128_1_0_0_1_n_n none x (wT W))

def rowB (v : FVec F S128 .f32) : FVec F S100000x128 .f32 :=
  broadcastInDim S100000x128 ![0, 1] bcast_S1x128_S100000x128_0_1 (broadcastInDim S1x128 ![1] bcast_S128_S1x128_1 v)

/-- The pre-normalisation array. -/
def zArr (h n1 n2 : FVec F S100000x128 .f32) (Ws Wn1 Whp Wn2 : FVec F S128x128 .f32) (bias : FVec F S128 .f32) (l : FVec F S4 .f32) :
    FVec F S100000x128 .f32 :=
  addf (addf (addf (addf (branch (scaleAt l ![0] slices_S4_S1_0) h Ws) (branch (scaleAt l ![1] slices_S4_S1_1) n1 Wn1))
    (branch (scaleAt l ![2] slices_S4_S1_2) (subf h n1) Whp)) (branch (scaleAt l ![3] slices_S4_S1_3) n2 Wn2)) (rowB bias)

/-- A column spread over the 128 features. -/
def colB (v : FVec F S100000x1 .f32) : FVec F S100000x128 .f32 := broadcastInDim S100000x128 ![0, 1] bcast_S100000x1_S100000x128_0_1 v

/-- The row sums as a column. -/
def rowSum (x : FVec F S100000x128 .f32) : FVec F S100000x1 .f32 :=
  broadcastInDim S100000x1 ![0] bcast_S100000_S100000x1_0 (Host.reduceAdd x (constant S_ .f32 0x00000000#32) reducesTo_S100000x128_S100000_d1 h_S_)

def c128B : FVec F S100000x1 .f32 := broadcastInDim S100000x1 ![] bcast_S_S100000x1 (constant S_ .f32 0x43000000#32)

/-- The row means. -/
def meanCol (z : FVec F S100000x128 .f32) : FVec F S100000x1 .f32 := Host.divf (rowSum z) c128B

/-- jnp.var's divisor `128 − ddof` with `ddof = 0`, as the program computes it. -/
def nrm : FVec F S_ .f32 := subf (constant S_ .f32 0x43000000#32) (sitofp .f32 (constantI S_ 32 0#32))

/-- The row variances, with jnp.var's guard on the divisor. -/
def varCol (z : FVec F S100000x128 .f32) : FVec F S100000x1 .f32 :=
  select (broadcastInDim S100000x1 ![] bcast_S_S100000x1 (cmpf .ogt (nrm (F := F)) (constant S_ .f32 0x00000000#32)))
    (Host.divf (rowSum (mulf (subf z (colB (meanCol z))) (subf z (colB (meanCol z)))))
      (broadcastInDim S100000x1 ![] bcast_S_S100000x1 (nrm (F := F))))
    (broadcastInDim S100000x1 ![] bcast_S_S100000x1 (id (constant S_ .f32 0x7FC00000#32)))

/-- LayerNorm of every row. -/
def lnArr (z : FVec F S100000x128 .f32) (gamma beta : FVec F S128 .f32) : FVec F S100000x128 .f32 :=
  addf (mulf (mulf (subf z (colB (meanCol z)))
      (colB (Host.rsqrt (addf (varCol z) (broadcastInDim S100000x1 ![] bcast_S_S100000x1 (constant S_ .f32 0x3727C5AC#32))))))
    (rowB gamma)) (rowB beta)

/-- The reference's result. -/
def refTerm (h : FVec F S100000x128 .f32) (e : IVec S2x1600000 32) (deg : FVec F S100000 .f32)
    (Ws Wn1 Whp Wn2 : FVec F S128x128 .f32) (bias : FVec F S128 .f32) (l : FVec F S4 .f32) (gamma beta : FVec F S128 .f32) :
    FVec F S100000x128 .f32 :=
  lnArr (zArr h (nb (agg e h) deg) (nb (agg e (nb (agg e h) deg)) deg) Ws Wn1 Whp Wn2 bias l) gamma beta

end Cert.ReferenceIdeal.RefValue

end
-- ==== Proof.RefRun.lean ====
/-
  The reference program's run: every weakly fair execution of its @main terminates, its result buffer holding
  `refTerm` of the argument arrays as launched and the arguments unchanged.

  @main is a straight line of host operations once the two outlined functions are opened at their calls (the
  variance, which itself calls the selection): 122 operations, listed below in program order. What a buffer holds
  after the line is the fold of the operations' results over the launch contents; at the result buffer that fold
  is `refTerm` by unfolding its named pieces, and no operation writes an argument buffer.
-/
import proofs.«422799_j39273180955310_3_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 122 host operations in order: its own ninety-nine, and at the variance call the callee's twenty
    (the row sums, the mean, the centred squares, the divisor `128 − 0`, the guarded quotient's operands) followed by
    the three of the selection it calls in turn, each over that call's own buffers. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg2 main_v14 (broadcastInDim S100000x1 ![0] bcast_S100000_S100000x1_0 : (⟨S100000, .f32⟩ : BufTy).Contents (Elt F) → (⟨S100000x1, .f32⟩ : BufTy).Contents (Elt F)),
    unary main_v14 main_v15 (broadcastInDim S100000x128 ![0, 1] bcast_S100000x1_S100000x128_0_1 : (⟨S100000x1, .f32⟩ : BufTy).Contents (Elt F) → (⟨S100000x128, .f32⟩ : BufTy).Contents (Elt F)),
    binary main_v13 main_v15 main_v16 (Host.divf : (⟨S100000x128, .f32⟩ : BufTy).Contents (Elt F) → (⟨S100000x128, .f32⟩ : BufTy).Contents (Elt F) → (⟨S100000x128, .f32⟩ : BufTy).Contents (Elt F)),
    nullary main_c_1 (constantI S_ 32 0#32),
    unary main_c_1 main_v17 (broadcastInDim S1600000 ![] bcast_S_S1600000 : (⟨S_, .i32⟩ : BufTy).Contents (Elt F) → (⟨S1600000, .i32⟩ : BufTy).Contents (Elt F)),
    binary main_v1 main_v17 main_v18 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v19 (broadcastInDim S1600000 ![] bcast_S_S1600000 : (⟨S_, .i32⟩ : BufTy).Contents (Elt F) → (⟨S1600000, .i32⟩ : BufTy).Contents (Elt F)),
    binary main_v1 main_v19 main_v20 (addi : (⟨S1600000, .i32⟩ : BufTy).Contents (Elt F) → (⟨S1600000, .i32⟩ : BufTy).Contents (Elt F) → (⟨S1600000, .i32⟩ : BufTy).Contents (Elt F)),
    ternary main_v18 main_v20 main_v1 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v21 main_v22 (broadcastInDim S1600000x1 ![0] bcast_S1600000_S1600000x1_0 : (⟨S1600000, .i32⟩ : BufTy).Contents (Elt F) → (⟨S1600000x1, .i32⟩ : BufTy).Contents (Elt F)),
    binary main_v16 main_v22 main_v23 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_3 (constant S_ .f32 0x00000000#32),
    unary main_cst_3 main_v24 (broadcastInDim S100000x128 ![] bcast_S_S100000x128 : (⟨S_, .f32⟩ : BufTy).Contents (Elt F) → (⟨S100000x128, .f32⟩ : BufTy).Contents (Elt F)),
    unary main_v3 main_v25 (broadcastInDim S1600000x1 ![0] bcast_S1600000_S1600000x1_0 : (⟨S1600000, .i32⟩ : BufTy).Contents (Elt F) → (⟨S1600000x1, .i32⟩ : BufTy).Contents (Elt F)),
    ternary main_v24 main_v25 main_v23 main_v26 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg2 main_v27 (broadcastInDim S100000x1 ![0] bcast_S100000_S100000x1_0 : (⟨S100000, .f32⟩ : BufTy).Contents (Elt F) → (⟨S100000x1, .f32⟩ : BufTy).Contents (Elt F)),
    unary main_v27 main_v28 (broadcastInDim S100000x128 ![0, 1] bcast_S100000x1_S100000x128_0_1 : (⟨S100000x1, .f32⟩ : BufTy).Contents (Elt F) → (⟨S100000x128, .f32⟩ : BufTy).Contents (Elt F)),
    binary main_v26 main_v28 main_v29 (Host.divf : (⟨S100000x128, .f32⟩ : BufTy).Contents (Elt F) → (⟨S100000x128, .f32⟩ : BufTy).Contents (Elt F) → (⟨S100000x128, .f32⟩ : BufTy).Contents (Elt F)),
    binary main_arg0 main_v16 main_v30 (subf : (⟨S100000x128, .f32⟩ : BufTy).Contents (Elt F) → (⟨S100000x128, .f32⟩ : BufTy).Contents (Elt F) → (⟨S100000x128, .f32⟩ : BufTy).Contents (Elt F)),
    unary main_arg8 main_v31 (Host.negf : (⟨S4, .f32⟩ : BufTy).Contents (Elt F) → (⟨S4, .f32⟩ : BufTy).Contents (Elt F)),
    unary main_v31 main_v32 (Host.exp : (⟨S4, .f32⟩ : BufTy).Contents (Elt F) → (⟨S4, .f32⟩ : BufTy).Contents (Elt F)),
    nullary main_cst_4 (constant S_ .f32 0x3F800000#32),
    unary main_cst_4 main_v33 (broadcastInDim S4 ![] bcast_S_S4 : (⟨S_, .f32⟩ : BufTy).Contents (Elt F) → (⟨S4, .f32⟩ : BufTy).Contents (Elt F)),
    binary main_v33 main_v32 main_v34 (addf : (⟨S4, .f32⟩ : BufTy).Contents (Elt F) → (⟨S4, .f32⟩ : BufTy).Contents (Elt F) → (⟨S4, .f32⟩ : BufTy).Contents (Elt F)),
    nullary main_cst_5 (constant S_ .f32 0x3F800000#32),
    unary main_cst_5 main_v35 (broadcastInDim S4 ![] bcast_S_S4 : (⟨S_, .f32⟩ : BufTy).Contents (Elt F) → (⟨S4, .f32⟩ : BufTy).Contents (Elt F)),
    binary main_v35 main_v34 main_v36 (Host.divf : (⟨S4, .f32⟩ : BufTy).Contents (Elt F) → (⟨S4, .f32⟩ : BufTy).Contents (Elt F) → (⟨S4, .f32⟩ : BufTy).Contents (Elt F)),
    nullary main_cst_6 (constant S_ .f32 0x40000000#32),
    unary main_cst_6 main_v37 (broadcastInDim S4 ![] bcast_S_S4 : (⟨S_, .f32⟩ : BufTy).Contents (Elt F) → (⟨S4, .f32⟩ : BufTy).Contents (Elt F)),
    binary main_v37 main_v36 main_v38 (mulf : (⟨S4, .f32⟩ : BufTy).Contents (Elt F) → (⟨S4, .f32⟩ : BufTy).Contents (Elt F) → (⟨S4, .f32⟩ : BufTy).Contents (Elt F)),
    unary main_v38 main_v39 ((extractStridedSlice S1 ![0] · slices_S4_S1_0) : (⟨S4, .f32⟩ : BufTy).Contents (Elt F) → (⟨S1, .f32⟩ : BufTy).Contents (Elt F)),
    reshape main_v39 main_v40 rfl shapeCasts_S1_S_,
    unary main_arg3 main_v41 ((transpose S128x128 [1, 0] · transposes_S128x128_S128x128_1_0) : (⟨S128x128, .f32⟩ : BufTy).Contents (Elt F) → (⟨S128x128, .f32⟩ : BufTy).Contents (Elt F)),
    binary main_arg0 main_v41 main_v42 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v40 main_v43 (broadcastInDim S100000x128 ![] bcast_S_S100000x128 : (⟨S_, .f32⟩ : BufTy).Contents (Elt F) → (⟨S100000x128, .f32⟩ : BufTy).Contents (Elt F)),
    binary main_v43 main_v42 main_v44 (mulf : (⟨S100000x128, .f32⟩ : BufTy).Contents (Elt F) → (⟨S100000x128, .f32⟩ : BufTy).Contents (Elt F) → (⟨S100000x128, .f32⟩ : BufTy).Contents (Elt F)),
    unary main_v38 main_v45 ((extractStridedSlice S1 ![1] · slices_S4_S1_1) : (⟨S4, .f32⟩ : BufTy).Contents (Elt F) → (⟨S1, .f32⟩ : BufTy).Contents (Elt F)),
    reshape main_v45 main_v46 rfl shapeCasts_S1_S_,
    unary main_arg4 main_v47 ((transpose S128x128 [1, 0] · transposes_S128x128_S128x128_1_0) : (⟨S128x128, .f32⟩ : BufTy).Contents (Elt F) → (⟨S128x128, .f32⟩ : BufTy).Contents (Elt F)),
    binary main_v16 main_v47 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v46 main_v49 (broadcastInDim S100000x128 ![] bcast_S_S100000x128 : (⟨S_, .f32⟩ : BufTy).Contents (Elt F) → (⟨S100000x128, .f32⟩ : BufTy).Contents (Elt F)),
    binary main_v49 main_v48 main_v50 (mulf : (⟨S100000x128, .f32⟩ : BufTy).Contents (Elt F) → (⟨S100000x128, .f32⟩ : BufTy).Contents (Elt F) → (⟨S100000x128, .f32⟩ : BufTy).Contents (Elt F)),
    binary main_v44 main_v50 main_v51 (addf : (⟨S100000x128, .f32⟩ : BufTy).Contents (Elt F) → (⟨S100000x128, .f32⟩ : BufTy).Contents (Elt F) → (⟨S100000x128, .f32⟩ : BufTy).Contents (Elt F)),
    unary main_v38 main_v52 ((extractStridedSlice S1 ![2] · slices_S4_S1_2) : (⟨S4, .f32⟩ : BufTy).Contents (Elt F) → (⟨S1, .f32⟩ : BufTy).Contents (Elt F)),
    reshape main_v52 main_v53 rfl shapeCasts_S1_S_,
    unary main_arg5 main_v54 ((transpose S128x128 [1, 0] · transposes_S128x128_S128x128_1_0) : (⟨S128x128, .f32⟩ : BufTy).Contents (Elt F) → (⟨S128x128, .f32⟩ : BufTy).Contents (Elt F)),
    binary main_v30 main_v54 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v53 main_v56 (broadcastInDim S100000x128 ![] bcast_S_S100000x128 : (⟨S_, .f32⟩ : BufTy).Contents (Elt F) → (⟨S100000x128, .f32⟩ : BufTy).Contents (Elt F)),
    binary main_v56 main_v55 main_v57 (mulf : (⟨S100000x128, .f32⟩ : BufTy).Contents (Elt F) → (⟨S100000x128, .f32⟩ : BufTy).Contents (Elt F) → (⟨S100000x128, .f32⟩ : BufTy).Contents (Elt F)),
    binary main_v51 main_v57 main_v58 (addf : (⟨S100000x128, .f32⟩ : BufTy).Contents (Elt F) → (⟨S100000x128, .f32⟩ : BufTy).Contents (Elt F) → (⟨S100000x128, .f32⟩ : BufTy).Contents (Elt F)),
    unary main_v38 main_v59 ((extractStridedSlice S1 ![3] · slices_S4_S1_3) : (⟨S4, .f32⟩ : BufTy).Contents (Elt F) → (⟨S1, .f32⟩ : BufTy).Contents (Elt F)),
    reshape main_v59 main_v60 rfl shapeCasts_S1_S_,
    unary main_arg6 main_v61 ((transpose S128x128 [1, 0] · transposes_S128x128_S128x128_1_0) : (⟨S128x128, .f32⟩ : BufTy).Contents (Elt F) → (⟨S128x128, .f32⟩ : BufTy).Contents (Elt F)),
    binary main_v29 main_v61 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v60 main_v63 (broadcastInDim S100000x128 ![] bcast_S_S100000x128 : (⟨S_, .f32⟩ : BufTy).Contents (Elt F) → (⟨S100000x128, .f32⟩ : BufTy).Contents (Elt F)),
    binary main_v63 main_v62 main_v64 (mulf : (⟨S100000x128, .f32⟩ : BufTy).Contents (Elt F) → (⟨S100000x128, .f32⟩ : BufTy).Contents (Elt F) → (⟨S100000x128, .f32⟩ : BufTy).Contents (Elt F)),
    binary main_v58 main_v64 main_v65 (addf : (⟨S100000x128, .f32⟩ : BufTy).Contents (Elt F) → (⟨S100000x128, .f32⟩ : BufTy).Contents (Elt F) → (⟨S100000x128, .f32⟩ : BufTy).Contents (Elt F)),
    unary main_arg7 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v65 main_v67 main_v68 (addf : (⟨S100000x128, .f32⟩ : BufTy).Contents (Elt F) → (⟨S100000x128, .f32⟩ : BufTy).Contents (Elt F) → (⟨S100000x128, .f32⟩ : BufTy).Contents (Elt F)),
    nullary main_cst_7 (constant S_ .f32 0x00000000#32),
    binary main_v68 main_cst_7 main_v69 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v69 main_v70 (broadcastInDim S100000x1 ![0] bcast_S100000_S100000x1_0 : (⟨S100000, .f32⟩ : BufTy).Contents (Elt F) → (⟨S100000x1, .f32⟩ : BufTy).Contents (Elt F)),
    nullary main_cst_8 (constant S_ .f32 0x43000000#32),
    unary main_cst_8 main_v71 (broadcastInDim S100000x1 ![] bcast_S_S100000x1 : (⟨S_, .f32⟩ : BufTy).Contents (Elt F) → (⟨S100000x1, .f32⟩ : BufTy).Contents (Elt F)),
    binary main_v70 main_v71 main_v72 (Host.divf : (⟨S100000x1, .f32⟩ : BufTy).Contents (Elt F) → (⟨S100000x1, .f32⟩ : BufTy).Contents (Elt F) → (⟨S100000x1, .f32⟩ : BufTy).Contents (Elt F)),
    nullary main_c_9 (constantI S_ 32 0#32),
    TRef.nullary main_call0.cst (constant S_ .f32 0x00000000#32),
    TRef.binary (.of main_v68) main_call0.cst main_call0.v0 (fun x v => Host.reduceAdd x v reducesTo_S100000x128_S100000_d1 h_S_),
    TRef.unary main_call0.v0 main_call0.v1 (broadcastInDim S100000x1 ![0] bcast_S100000_S100000x1_0),
    TRef.nullary main_call0.cst_0 (constant S_ .f32 0x43000000#32),
    TRef.unary main_call0.cst_0 main_call0.v2 (broadcastInDim S100000x1 ![] bcast_S_S100000x1),
    TRef.binary main_call0.v1 main_call0.v2 main_call0.v3 Host.divf,
    TRef.unary main_call0.v3 main_call0.v4 (broadcastInDim S100000x128 ![0, 1] bcast_S100000x1_S100000x128_0_1),
    TRef.binary (.of main_v68) main_call0.v4 main_call0.v5 subf,
    TRef.binary main_call0.v5 main_call0.v5 main_call0.v6 mulf,
    TRef.unary (.of main_c_9) main_call0.v7 (sitofp .f32),
    TRef.nullary main_call0.cst_1 (constant S_ .f32 0x43000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S100000_d1 h_S_),
    TRef.unary main_call0.v9 main_call0.v10 (broadcastInDim S100000x1 ![0] bcast_S100000_S100000x1_0),
    TRef.unary main_call0.v8 main_call0.v11 (broadcastInDim S100000x1 ![] bcast_S_S100000x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S100000x1 ![] bcast_S_S100000x1),
    TRef.ternary main_call0.v13 main_call0.v12 main_call0.call0.v1 main_call0.call0.v2 (fun p a b => select (broadcastInDim S100000x1 ![] bcast_S_S100000x1 p) a b),
    unary main_v72 main_v74 (broadcastInDim S100000x128 ![0, 1] bcast_S100000x1_S100000x128_0_1 : (⟨S100000x1, .f32⟩ : BufTy).Contents (Elt F) → (⟨S100000x128, .f32⟩ : BufTy).Contents (Elt F)),
    binary main_v68 main_v74 main_v75 (subf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3727C5AC#32),
    unary main_cst_10 main_v76 (broadcastInDim S100000x1 ![] bcast_S_S100000x1 : (⟨S_, .f32⟩ : BufTy).Contents (Elt F) → (⟨S100000x1, .f32⟩ : BufTy).Contents (Elt F)),
    binary main_v73 main_v76 main_v77 (addf : (⟨S100000x1, .f32⟩ : BufTy).Contents (Elt F) → (⟨S100000x1, .f32⟩ : BufTy).Contents (Elt F) → (⟨S100000x1, .f32⟩ : BufTy).Contents (Elt F)),
    unary main_v77 main_v78 (Host.rsqrt : (⟨S100000x1, .f32⟩ : BufTy).Contents (Elt F) → (⟨S100000x1, .f32⟩ : BufTy).Contents (Elt F)),
    unary main_v78 main_v79 (broadcastInDim S100000x128 ![0, 1] bcast_S100000x1_S100000x128_0_1 : (⟨S100000x1, .f32⟩ : BufTy).Contents (Elt F) → (⟨S100000x128, .f32⟩ : BufTy).Contents (Elt F)),
    binary main_v75 main_v79 main_v80 (mulf : (⟨S100000x128, .f32⟩ : BufTy).Contents (Elt F) → (⟨S100000x128, .f32⟩ : BufTy).Contents (Elt F) → (⟨S100000x128, .f32⟩ : BufTy).Contents (Elt F)),
    unary main_arg9 main_v81 (broadcastInDim S1x128 ![1] bcast_S128_S1x128_1 : (⟨S128, .f32⟩ : BufTy).Contents (Elt F) → (⟨S1x128, .f32⟩ : BufTy).Contents (Elt F)),
    unary main_v81 main_v82 (broadcastInDim S100000x128 ![0, 1] bcast_S1x128_S100000x128_0_1 : (⟨S1x128, .f32⟩ : BufTy).Contents (Elt F) → (⟨S100000x128, .f32⟩ : BufTy).Contents (Elt F)),
    binary main_v80 main_v82 main_v83 (mulf : (⟨S100000x128, .f32⟩ : BufTy).Contents (Elt F) → (⟨S100000x128, .f32⟩ : BufTy).Contents (Elt F) → (⟨S100000x128, .f32⟩ : BufTy).Contents (Elt F)),
    unary main_arg10 main_v84 (broadcastInDim S1x128 ![1] bcast_S128_S1x128_1 : (⟨S128, .f32⟩ : BufTy).Contents (Elt F) → (⟨S1x128, .f32⟩ : BufTy).Contents (Elt F)),
    unary main_v84 main_v85 (broadcastInDim S100000x128 ![0, 1] bcast_S1x128_S100000x128_0_1 : (⟨S1x128, .f32⟩ : BufTy).Contents (Elt F) → (⟨S100000x128, .f32⟩ : BufTy).Contents (Elt F)),
    binary main_v83 main_v85 main_v86 (addf : (⟨S100000x128, .f32⟩ : BufTy).Contents (Elt F) → (⟨S100000x128, .f32⟩ : BufTy).Contents (Elt F) → (⟨S100000x128, .f32⟩ : BufTy).Contents (Elt F)) ]

-- 122 binds re-associated: the rewrite under the chain recurses once per statement
set_option maxRecDepth 8192 in
/-- @main is that straight line: the two windows in order, the callees' bodies opened at their calls and the call
    records at their fields; both sides are one chain of steps once sequencing is re-associated. -/
theorem main_eq (c : Dev nD) : main (F := F) c = seq ops := by
  simp only [main, main_part0, main_part1, fn_var.body, fn_where.body, seq, bind_assoc, pure_bind]

/-- The signature scopes no TensorCore buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., unary_bufs_sub .., binary_bufs_sub ..,
    binary_bufs_sub .., unary_bufs_sub .., unary_bufs_sub .., nullary_bufs_sub .., unary_bufs_sub .., binary_bufs_sub ..,
    nullary_bufs_sub .., unary_bufs_sub .., binary_bufs_sub .., nullary_bufs_sub .., unary_bufs_sub .., binary_bufs_sub ..,
    unary_bufs_sub .., reshape_bufs_sub .., unary_bufs_sub .., binary_bufs_sub .., unary_bufs_sub .., binary_bufs_sub ..,
    unary_bufs_sub .., reshape_bufs_sub .., unary_bufs_sub .., binary_bufs_sub .., unary_bufs_sub .., binary_bufs_sub ..,
    binary_bufs_sub .., unary_bufs_sub .., reshape_bufs_sub .., unary_bufs_sub .., binary_bufs_sub .., unary_bufs_sub ..,
    binary_bufs_sub .., binary_bufs_sub .., unary_bufs_sub .., reshape_bufs_sub .., unary_bufs_sub .., binary_bufs_sub ..,
    unary_bufs_sub .., binary_bufs_sub .., binary_bufs_sub .., unary_bufs_sub .., unary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

-- the result buffer is the last of 122 results, each read through the ones before it; the arguments pass all 122
set_option maxHeartbeats 4000000 in
set_option maxRecDepth 8192 in
/-- On the device, for any float values, from any memory with zero counters: every weakly fair execution of @main
    terminates with the result buffer at `refTerm` of the arguments' launch contents — the fold of the 122 results
    read back at the result buffer is `refTerm` with its named pieces unfolded, the reshapes being the plain shape
    casts and the callees' typed references the buffers themselves — and with every argument buffer as launched,
    none being written. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86)
          = refTerm (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v86).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp),
      (h c main_arg8).trans (by after_results_simp),
      (h c main_arg9).trans (by after_results_simp),
      (h c main_arg10).trans (by after_results_simp)⟩)
    (run_seq scopedRefs_eq scopedSems_eq defs main (fun _ => ops) main_eq (fun _ => ops_sub) m ρ)

end Cert.ReferenceIdeal.RefValue

end
-- ==== Proof.Spec.lean ====
/-
  The mathematics of one output row, over the extended reals, in the two arrangements the programs use.

  Every row of the result depends on the matching row of the node features `h`, of the first-hop sum `S1`
  and of the second-hop sum `S2`, on that node's degree `d`, and on the shared weights. With `n1 = S1 / d`,
  `n2 = S2 / d` the row is LayerNorm of
      z j = s₀·(Σ_k h k · A k j) + s₁·(Σ_k n1 k · B k j) + s₂·(Σ_k (h k − n1 k) · C k j) + s₃·(Σ_k n2 k · D k j) + b j
  (the reference's arrangement: each product scaled afterwards, the means by a quotient), while the kernel
  folds each scale into its weight matrix, `Σ_k h k · (s₀ · A k j)`, and multiplies by the reciprocal `1 / d`.
  The two agree when every scale is a non-negative real (a non-negative real distributes over any sum of
  extended reals) and `d ≠ 0` (then `x · (1 / d) = x / d`, at the infinities too).
-/
import Idealize.ShloMosaic.PureOps.Ideal
import Idealize.ShloMosaic.PureOps.Ideal.Laws

noncomputable section

namespace Cert.Spec

open Idealize.ShloMosaic

/-- The literals both programs carry, as the extended reals their words denote. -/
abbrev one : EReal := Ideal.ofBits .f32 0x3F800000#32
abbrev two : EReal := Ideal.ofBits .f32 0x40000000#32
abbrev c128 : EReal := Ideal.ofBits .f32 0x43000000#32
abbrev eps : EReal := Ideal.ofBits .f32 0x3727C5AC#32

/-- A branch scale: twice the logistic of the logit, as both programs spell it. -/
def scale (l : EReal) : EReal := two * Ideal.div one (one + Ideal.exp (-l))

/-- The pre-normalisation row, the reference's arrangement. -/
def zRow (h n1 n2 : Fin 128 → EReal) (A B C D : Fin 128 → Fin 128 → EReal) (b : Fin 128 → EReal) (s0 s1 s2 s3 : EReal) :
    Fin 128 → EReal := fun j =>
  (((s0 * ∑ k, h k * A k j) + s1 * ∑ k, n1 k * B k j) + s2 * ∑ k, (h k - n1 k) * C k j) + s3 * ∑ k, n2 k * D k j + b j

/-- The pre-normalisation row, the kernel's arrangement: the scales folded into the weights. -/
def zRowK (h n1 n2 : Fin 128 → EReal) (A B C D : Fin 128 → Fin 128 → EReal) (b : Fin 128 → EReal) (s0 s1 s2 s3 : EReal) :
    Fin 128 → EReal := fun j =>
  (((∑ k, h k * (s0 * A k j)) + ∑ k, n1 k * (s1 * B k j)) + ∑ k, (h k - n1 k) * (s2 * C k j)) + (∑ k, n2 k * (s3 * D k j)) + b j

/-- LayerNorm of a row: centred, scaled by the reciprocal root of the mean square deviation plus `eps`, then the affine map. -/
def lnRow (z γ β : Fin 128 → EReal) : Fin 128 → EReal := fun j =>
  ((z j - Ideal.div (∑ j', z j') c128)
      * Ideal.rsqrt (Ideal.div (∑ j', (z j' - Ideal.div (∑ j'', z j'') c128) * (z j' - Ideal.div (∑ j'', z j'') c128)) c128 + eps))
    * γ j + β j

/-- A non-negative real distributes over a finite sum of extended reals, whatever their values. -/
theorem coe_nonneg_mul_sum {ι : Type*} (t : Finset ι) (r : ℝ) (hr : 0 ≤ r) (f : ι → EReal) :
    (r : EReal) * ∑ k ∈ t, f k = ∑ k ∈ t, (r : EReal) * f k := by
  classical
  induction t using Finset.induction_on with
  | empty => simp
  | insert a t ha ih =>
    rw [Finset.sum_insert ha, Finset.sum_insert ha,
      EReal.left_distrib_of_nonneg_of_ne_top (EReal.coe_nonneg.mpr hr) (EReal.coe_ne_top r), ih]

/-- Folding a non-negative real scale into the right factor of every product of a sum. -/
theorem sum_mul_scaled (r : ℝ) (hr : 0 ≤ r) (x w : Fin 128 → EReal) :
    ∑ k, x k * ((r : EReal) * w k) = (r : EReal) * ∑ k, x k * w k := by
  rw [coe_nonneg_mul_sum _ r hr]
  exact Finset.sum_congr rfl fun k _ => by rw [mul_left_comm]

/-- The kernel's arrangement of the row is the reference's, when the four scales are non-negative reals. -/
theorem zRowK_eq_zRow (h n1 n2 : Fin 128 → EReal) (A B C D : Fin 128 → Fin 128 → EReal) (b : Fin 128 → EReal)
    (r0 r1 r2 r3 : ℝ) (h0 : 0 ≤ r0) (h1 : 0 ≤ r1) (h2 : 0 ≤ r2) (h3 : 0 ≤ r3) :
    zRowK h n1 n2 A B C D b r0 r1 r2 r3 = zRow h n1 n2 A B C D b r0 r1 r2 r3 := by
  funext j
  simp only [zRowK, zRow]
  rw [sum_mul_scaled r0 h0, sum_mul_scaled r1 h1, sum_mul_scaled r2 h2, sum_mul_scaled r3 h3]

/-- The word `0x3F800000` is the real one, `0x40000000` two, `0x43000000` a hundred and twenty-eight. -/
theorem one_eq : one = ((1 : ℝ) : EReal) := by
  simp [one, Ideal.ofBits, Ideal.ieee, -EReal.coe_mul]; norm_num
theorem two_eq : two = ((2 : ℝ) : EReal) := by
  simp [two, Ideal.ofBits, Ideal.ieee, -EReal.coe_mul]; norm_num
theorem c128_eq : c128 = ((128 : ℝ) : EReal) := by
  simp [c128, Ideal.ofBits, Ideal.ieee, -EReal.coe_mul]; norm_num

/-- Multiplying by the reciprocal of a non-zero degree is dividing by it, on every extended real. -/
theorem mul_recip_eq_div (x d : EReal) (hd : d ≠ 0) : x * Ideal.div one d = Ideal.div x d := by
  rw [Ideal.div, if_neg hd, Ideal.div, if_neg hd, one_eq]
  simp

/-- Every branch scale is a non-negative real: the logistic of any extended real lies in [0, 1]. -/
theorem scale_nonneg (l : EReal) : ∃ r : ℝ, 0 ≤ r ∧ scale l = (r : EReal) := by
  unfold scale
  rw [one_eq, two_eq]
  induction l using EReal.rec with
  | bot =>
    refine ⟨0, le_refl _, ?_⟩
    have h : (1 : EReal) + ⊤ = ⊤ := EReal.add_top_of_ne_bot (by exact_mod_cast EReal.coe_ne_bot 1)
    simp [Ideal.div, h]
  | top =>
    refine ⟨2, by norm_num, ?_⟩
    simp [Ideal.div]
  | coe x =>
    have hpos : (0 : ℝ) < 1 + Real.exp (-x) := by positivity
    refine ⟨2 * (1 / (1 + Real.exp (-x))), by positivity, ?_⟩
    rw [← EReal.coe_neg, Ideal.exp_coe, ← EReal.coe_add, Ideal.div_coe hpos.ne', ← EReal.coe_mul, ← EReal.coe_mul]
    simp

end Cert.Spec

end
-- ==== Proof.KerPayOuter.lean ====
/-
  The stored block's outer layer read at an element: entry (r, j) of the block is LayerNorm, along row r, of the
  pre-normalisation block — the two row reductions are sums over the row's 128 coordinates, the mean a quotient by the
  literal 128 spread back over the row, the affine map's vectors read at coordinate j.
-/
import proofs.«422799_j39273180955310_3_alg».proof.Proof.Gen.KernelIdeal.Value
import proofs.«422799_j39273180955310_3_alg».proof.Proof.Spec
import Idealize.ShloMosaic.Lib.ValueIdx
import Idealize.ShloMosaic.Lib.Pipeline.Value
import Idealize.ShloMosaic.PureOps.Ideal.Laws

noncomputable section

namespace Cert.KernelIdeal.KerValue

open Cert.KernelIdeal Cert.KernelIdeal.Gen Idealize.ShloMosaic Idealize.ShloMosaic.TcCoe Idealize.ShloMosaic.ValueIdx

/-- A row reduction of a 4000 × 128 block, from zero, read at row r: the sum over the row. -/
theorem mr_apply (p : FVec Ideal S4000x128 .f32) (r : Fin 4000) :
    (multiReduction .add [1] S4000 p 0x00000000#32 reduces_S4000x128_S4000 (.inl rfl) rfl) (ix1 r) = ∑ k : Fin 128, p (ix2 r k) := by
  refine (Ideal.multiReduction_add_single p _ reduces_S4000x128_S4000 _ _ (ix1 r)).trans ?_
  refine Finset.sum_congr rfl fun k _ => congrArg p ?_
  funext a; apply Fin.ext
  match a with
  | ⟨0, _⟩ => rfl
  | ⟨1, _⟩ => rfl

/-- The row mean, spread back over the row, read at (r, k): the row sum over the literal 128. -/
theorem mean_apply (p : FVec Ideal S4000x128 .f32) (r : Fin 4000) (k : Fin 128) :
    (broadcastTo S4000x128 (divf (shapeCast S4000x1 (multiReduction .add [1] S4000 p 0x00000000#32 reduces_S4000x128_S4000 (.inl rfl) rfl) shapeCasts_S4000_S4000x1) (broadcast S4000x1 (Scalar.ofBits .f32 0x43000000#32))) broadcasts_S4000x1_S4000x128) (ix2 r k) = Ideal.div (∑ k' : Fin 128, p (ix2 r k')) Cert.Spec.c128 := by
  refine (broadcastTo_apply _ _ (ix2 r k) (ix2 r (0 : Fin 1))
    (fun a => match a with | ⟨0, _⟩ => rfl | ⟨1, _⟩ => rfl)).trans ?_
  rw [divf_apply, broadcast_apply]
  refine congrArg (fun t => Ideal.div t Cert.Spec.c128) ?_
  refine (shapeCast_apply _ _ (ix2 r (0 : Fin 1)) (ix1 r)
    (by rw [Shape.rowMajor_val_one, Shape.rowMajor_val_two]; show r.val = r.val * 1 + 0; omega)).trans ?_
  exact mr_apply p r

/-- The deviation from the row mean at (r, k). -/
theorem dev_apply (p : FVec Ideal S4000x128 .f32) (r : Fin 4000) (k : Fin 128) :
    (subf p (broadcastTo S4000x128 (divf (shapeCast S4000x1 (multiReduction .add [1] S4000 p 0x00000000#32 reduces_S4000x128_S4000 (.inl rfl) rfl) shapeCasts_S4000_S4000x1) (broadcast S4000x1 (Scalar.ofBits .f32 0x43000000#32))) broadcasts_S4000x1_S4000x128)) (ix2 r k) = p (ix2 r k) - Ideal.div (∑ k' : Fin 128, p (ix2 r k')) Cert.Spec.c128 := by
  rw [subf_apply, mean_apply]

/-- The row sum of the squared deviations. -/
theorem sq_apply (p : FVec Ideal S4000x128 .f32) (r : Fin 4000) :
    (multiReduction .add [1] S4000 (mulf (subf p (broadcastTo S4000x128 (divf (shapeCast S4000x1 (multiReduction .add [1] S4000 p 0x00000000#32 reduces_S4000x128_S4000 (.inl rfl) rfl) shapeCasts_S4000_S4000x1) (broadcast S4000x1 (Scalar.ofBits .f32 0x43000000#32))) broadcasts_S4000x1_S4000x128)) (subf p (broadcastTo S4000x128 (divf (shapeCast S4000x1 (multiReduction .add [1] S4000 p 0x00000000#32 reduces_S4000x128_S4000 (.inl rfl) rfl) shapeCasts_S4000_S4000x1) (broadcast S4000x1 (Scalar.ofBits .f32 0x43000000#32))) broadcasts_S4000x1_S4000x128))) 0x00000000#32 reduces_S4000x128_S4000 (.inl rfl) rfl) (ix1 r)
      = ∑ k : Fin 128, (p (ix2 r k) - Ideal.div (∑ k' : Fin 128, p (ix2 r k')) Cert.Spec.c128)
          * (p (ix2 r k) - Ideal.div (∑ k' : Fin 128, p (ix2 r k')) Cert.Spec.c128) := by
  refine (mr_apply _ r).trans (Finset.sum_congr rfl fun k _ => ?_)
  rw [mulf_apply, dev_apply]

/-- The outer layer over any pre-normalisation block p: LayerNorm of row r of p at coordinate j. -/
theorem outer_apply (p : FVec Ideal S4000x128 .f32) (g b : Vec Ideal S1x128 .f32) (r : Fin 4000) (j : Fin 128) :
    FloatOps.addf (FloatOps.mulf (FloatOps.mulf (FloatOps.subf (p (ix2 r j)) (FloatOps.divf ((multiReduction .add [1] S4000 p 0x00000000#32 reduces_S4000x128_S4000 (.inl rfl) rfl) (ix1 r)) (Scalar.ofBits .f32 0x43000000#32))) (FloatOps.rsqrt (FloatOps.addf (FloatOps.divf ((multiReduction .add [1] S4000 (mulf (subf p (broadcastTo S4000x128 (divf (shapeCast S4000x1 (multiReduction .add [1] S4000 p 0x00000000#32 reduces_S4000x128_S4000 (.inl rfl) rfl) shapeCasts_S4000_S4000x1) (broadcast S4000x1 (Scalar.ofBits .f32 0x43000000#32))) broadcasts_S4000x1_S4000x128)) (subf p (broadcastTo S4000x128 (divf (shapeCast S4000x1 (multiReduction .add [1] S4000 p 0x00000000#32 reduces_S4000x128_S4000 (.inl rfl) rfl) shapeCasts_S4000_S4000x1) (broadcast S4000x1 (Scalar.ofBits .f32 0x43000000#32))) broadcasts_S4000x1_S4000x128))) 0x00000000#32 reduces_S4000x128_S4000 (.inl rfl) rfl) (ix1 r)) (Scalar.ofBits .f32 0x43000000#32)) (Scalar.ofBits .f32 0x3727C5AC#32)))) (g (ix2 (0 : Fin 1) j))) (b (ix2 (0 : Fin 1) j))
      = Cert.Spec.lnRow (fun j' => p (ix2 r j')) (fun j' => g (ix2 (0 : Fin 1) j')) (fun j' => b (ix2 (0 : Fin 1) j')) j := by
  rw [sq_apply p r, mr_apply p r]
  rfl

/-- Entry (r, j) of the stored block is LayerNorm of row r of the pre-normalisation block, whatever that row is. -/
theorem E11_of_row (P0 : Vec Ideal S4000x128 .f32) (P1 : Vec Ideal S4000x1 .f32) (P2 P3 : Vec Ideal S4000x128 .f32) (P4 P5 P6 P7 : Vec Ideal S128x128 .bf16) (P8 P9 P10 : Vec Ideal S1x128 .f32) (r : Fin 4000) (j : Fin 128) (Z : Fin 128 → EReal) (hz : ∀ j' : Fin 128, k0_pay2 (F := Ideal) P0 P1 P2 P3 P4 P5 P6 P7 P8 (ix2 r j') = Z j') : Cert.KernelIdeal.Value.E11 (F := Ideal) P0 P1 P2 P3 P4 P5 P6 P7 P8 P9 P10 (ix2 r j) = Cert.Spec.lnRow Z (fun j' => P9 (ix2 0 j')) (fun j' => P10 (ix2 0 j')) j := by
  have i0 : Cert.KernelIdeal.Value.ix11_0 (ix2 r j) = ix2 r j := by
    funext a; apply Fin.ext
    match a with
    | ⟨0, _⟩ => rfl
    | ⟨1, _⟩ => rfl
  have i1 : Cert.KernelIdeal.Value.ix11_1 (ix2 r j) = ix1 r := by
    funext a; apply Fin.ext
    match a with
    | ⟨0, _⟩ => rfl
  have i2 : Cert.KernelIdeal.Value.ix11_2 (ix2 r j) = ix1 r := by
    funext a; apply Fin.ext
    match a with
    | ⟨0, _⟩ => rfl
  have i3 : Cert.KernelIdeal.Value.ix11_3 (ix2 r j) = ix2 (0 : Fin 1) j := by
    funext a; apply Fin.ext
    match a with
    | ⟨0, _⟩ => rfl
    | ⟨1, _⟩ => rfl
  have i4 : Cert.KernelIdeal.Value.ix11_4 (ix2 r j) = ix2 (0 : Fin 1) j := by
    funext a; apply Fin.ext
    match a with
    | ⟨0, _⟩ => rfl
    | ⟨1, _⟩ => rfl
  have key := outer_apply (k0_pay2 (F := Ideal) P0 P1 P2 P3 P4 P5 P6 P7 P8) P9 P10 r j
  rw [show (fun j' => k0_pay2 (F := Ideal) P0 P1 P2 P3 P4 P5 P6 P7 P8 (ix2 r j')) = Z from funext hz] at key
  refine Eq.trans ?_ key
  unfold Cert.KernelIdeal.Value.E11
  rw [i0, i1, i2, i3, i4]

end Cert.KernelIdeal.KerValue

end
-- ==== Proof.KerPay.lean ====
/-
  The body's one store, read at an element. Entry (r, j) of the stored block is LayerNorm, along row r, of
      z j' = Σ_k x0(r,k)·x4(k,j') + Σ_k (x1(r,k)·x3(r,0))·x5(k,j') + Σ_k (x0(r,k) − x1(r,k)·x3(r,0))·x6(k,j')
             + Σ_k (x2(r,k)·x3(r,0))·x7(k,j') + x8(0,j')
  with gain x9(0,·) and offset x10(0,·): the four matrix products as sums over the contracted axis, the two lane
  reductions as sums over the row, the column broadcasts read at column 0.
-/
import proofs.«422799_j39273180955310_3_alg».proof.Proof.Gen.KernelIdeal.Value
import proofs.«422799_j39273180955310_3_alg».proof.Proof.Spec
import proofs.«422799_j39273180955310_3_alg».proof.Proof.KerPayOuter
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerValue

open Cert.KernelIdeal Cert.KernelIdeal.Gen Idealize.ShloMosaic Idealize.ShloMosaic.TcCoe Idealize.ShloMosaic.ValueIdx

/-- The kernel's pre-normalisation row `r`, over the eight blocks it reads. -/
def kz (x0 x1 x2 : Vec Ideal S4000x128 .f32) (x3 : Vec Ideal S4000x1 .f32) (x4 x5 x6 x7 : Vec Ideal S128x128 .bf16)
    (x8 : Vec Ideal S1x128 .f32) (r : Fin 4000) : Fin 128 → EReal := fun j' =>
  (((∑ k : Fin 128, x0 (ix2 r k) * x4 (ix2 k j')) + ∑ k : Fin 128, (x1 (ix2 r k) * x3 (ix2 r 0)) * x5 (ix2 k j'))
      + ∑ k : Fin 128, (x0 (ix2 r k) - x1 (ix2 r k) * x3 (ix2 r 0)) * x6 (ix2 k j'))
    + (∑ k : Fin 128, (x2 (ix2 r k) * x3 (ix2 r 0)) * x7 (ix2 k j')) + x8 (ix2 0 j')

/-! ## The 4000×128 by 128×128 product read at an element

The product's operand indices at output index `y` and contraction position `k`: the left operand is read at
(y₀, k), the right one at (k, y₁). One lemma per operand axis. -/

/-- The left operand's row is the output's row. -/
theorem kz_lhs0 (y : S4000x128.Idx) (k : dot_S4000x128_S128x128_S4000x128_1_0_0_1_n_n.contr.Idx) :
    (dot_S4000x128_S128x128_S4000x128_1_0_0_1_n_n.lhsIdx y k 0).val = (y 0).val := rfl

/-- The left operand's column is the contraction position. -/
theorem kz_lhs1 (y : S4000x128.Idx) (k : dot_S4000x128_S128x128_S4000x128_1_0_0_1_n_n.contr.Idx) :
    (dot_S4000x128_S128x128_S4000x128_1_0_0_1_n_n.lhsIdx y k 1).val = (k ⟨0, by decide⟩).val :=
  dot_S4000x128_S128x128_S4000x128_1_0_0_1_n_n.lhsIdx_val_of_single rfl y k

/-- The right operand's row is the contraction position. -/
theorem kz_rhs0 (y : S4000x128.Idx) (k : dot_S4000x128_S128x128_S4000x128_1_0_0_1_n_n.contr.Idx) :
    (dot_S4000x128_S128x128_S4000x128_1_0_0_1_n_n.rhsIdx y k 0).val = (k ⟨0, by decide⟩).val :=
  dot_S4000x128_S128x128_S4000x128_1_0_0_1_n_n.rhsIdx_val_of_single rfl y k

/-- The right operand's column is the output's column. -/
theorem kz_rhs1 (y : S4000x128.Idx) (k : dot_S4000x128_S128x128_S4000x128_1_0_0_1_n_n.contr.Idx) :
    (dot_S4000x128_S128x128_S4000x128_1_0_0_1_n_n.rhsIdx y k 1).val = (y 1).val := rfl

/-- A 4000×128 by 128×128 product into the zero block, at (r, j): the sum over the contracted axis of the products of
    the left operand's row r and the right operand's column j. -/
theorem kz_mm_apply (a : FVec Ideal S4000x128 .bf16) (b : FVec Ideal S128x128 .bf16) (r : Fin 4000) (j : Fin 128) :
    matmul dot_S4000x128_S128x128_S4000x128_1_0_0_1_n_n none a b (constant S4000x128 .f32 0x00000000#32) (ix2 r j)
      = ∑ k : Fin 128, a (ix2 r k) * b (ix2 k j) := by
  refine (Ideal.matmul_constant_zero_apply _ none a b (ix2 r j)).trans ?_
  rw [← Equiv.sum_comp (contrEquiv1 dot_S4000x128_S128x128_S4000x128_1_0_0_1_n_n 128 rfl rfl).symm]
  refine Finset.sum_congr rfl fun k _ => ?_
  have hl : dot_S4000x128_S128x128_S4000x128_1_0_0_1_n_n.lhsIdx (ix2 r j)
      ((contrEquiv1 dot_S4000x128_S128x128_S4000x128_1_0_0_1_n_n 128 rfl rfl).symm k) = ix2 r k := by
    funext ax
    match ax with
    | ⟨0, _⟩ => exact Fin.ext (kz_lhs0 _ _)
    | ⟨1, _⟩ => exact Fin.ext ((kz_lhs1 _ _).trans (contrEquiv1_symm_val _ 128 rfl rfl k))
  have hr : dot_S4000x128_S128x128_S4000x128_1_0_0_1_n_n.rhsIdx (ix2 r j)
      ((contrEquiv1 dot_S4000x128_S128x128_S4000x128_1_0_0_1_n_n 128 rfl rfl).symm k) = ix2 k j := by
    funext ax
    match ax with
    | ⟨0, _⟩ => exact Fin.ext ((kz_rhs0 _ _).trans (contrEquiv1_symm_val _ 128 rfl rfl k))
    | ⟨1, _⟩ => exact Fin.ext (kz_rhs1 _ _)
  rw [hl, hr]

/-! ## A column broadcast along the lanes -/

/-- An `[a, 1]` column broadcast to `[a, b]` reads, at (p, c), the column at p. -/
theorem kz_bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The pre-normalisation block and the stored block -/

/-- The body's pre-normalisation block at (r, j') is the row `kz` at j': the four products as sums over the contracted
    axis, the 4000×1 column read at column 0, the 1×128 row read at row 0; the casts to the same shape and the narrowing
    of the products' left operands leave the extended reals as they are. -/
theorem pay2_apply (P0 : Vec Ideal S4000x128 .f32) (P1 : Vec Ideal S4000x1 .f32) (P2 P3 : Vec Ideal S4000x128 .f32)
    (P4 P5 P6 P7 : Vec Ideal S128x128 .bf16) (P8 : Vec Ideal S1x128 .f32) (r : Fin 4000) (j' : Fin 128) :
    k0_pay2 (F := Ideal) P0 P1 P2 P3 P4 P5 P6 P7 P8 (ix2 r j') = kz P0 P2 P3 P1 P4 P5 P6 P7 P8 r j' := by
  simp only [k0_pay2, kz, shapeCast_self, addf_apply, mulf_apply, subf_apply, truncf_apply, kz_mm_apply,
    kz_bcast_col_apply, broadcastTo_1b_ab_apply]

/-- The stored block at (r, j). -/
theorem out_apply (x0 x1 x2 : Vec Ideal S4000x128 .f32) (x3 : Vec Ideal S4000x1 .f32) (x4 x5 x6 x7 : Vec Ideal S128x128 .bf16)
    (x8 x9 x10 : Vec Ideal S1x128 .f32) (r : Fin 4000) (j : Fin 128) :
    out0_11 (F := Ideal) x0 x1 x2 x3 x4 x5 x6 x7 x8 x9 x10 (ix2 r j)
      = Cert.Spec.lnRow (kz x0 x1 x2 x3 x4 x5 x6 x7 x8 r) (fun j' => x9 (ix2 0 j')) (fun j' => x10 (ix2 0 j')) j := by
  -- every load is of a whole block at zero offsets: it reads the block itself
  have hz : (![0, 0] : Fin 2 → Nat) = fun _ => 0 := by
    funext a
    match a with
    | ⟨0, _⟩ => rfl
    | ⟨1, _⟩ => rfl
  have e0 : ∀ x : Vec Ideal S4000x128 .f32, View.ld x r0_0 = x := fun x => View.ld_unit_zero hz _ x
  have e1 : ∀ x : Vec Ideal S4000x1 .f32, View.ld x r0_1 = x := fun x => View.ld_unit_zero hz _ x
  have e2 : ∀ x : Vec Ideal S128x128 .bf16, View.ld x r0_2 = x := fun x => View.ld_unit_zero hz _ x
  have e3 : ∀ x : Vec Ideal S1x128 .f32, View.ld x r0_3 = x := fun x => View.ld_unit_zero hz _ x
  unfold out0_11
  rw [e0 x0, e0 x1, e0 x2, e1 x3, e2 x4, e2 x5, e2 x6, e2 x7, e3 x8, e3 x9, e3 x10]
  -- the one store covers the block: its payload index by index, then the normalisation over the row `kz`
  rw [Cert.KernelIdeal.Value.canon11_eq]
  exact E11_of_row x0 x3 x1 x2 x4 x5 x6 x7 x8 x9 x10 r j (kz x0 x1 x2 x3 x4 x5 x6 x7 x8 r)
    (fun j' => pay2_apply x0 x3 x1 x2 x4 x5 x6 x7 x8 r j')

end Cert.KernelIdeal.KerValue

end
-- ==== Proof.KerFinal.lean ====
/-
  From blocks to the array. Grid point t stages rows 4000·t … 4000·t + 3999 of the three row-blocked arrays and of the
  reciprocal-degree column, and the whole of the four weights and three row vectors; it writes back rows
  4000·t … 4000·t + 3999 of the result. So the result array after the run is, entry by entry, LayerNorm along the row of
  the kernel's pre-normalisation row over the arrays the region found: `KG`.
-/
import proofs.«422799_j39273180955310_3_alg».proof.Proof.KerPay

noncomputable section

namespace Cert.KernelIdeal.KerValue

open Cert.KernelIdeal Cert.KernelIdeal.Gen Cert.KernelIdeal.Value Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-- The kernel's pre-normalisation row `i`, over the whole arrays the region finds. -/
def kzA (X0 X1 X2 : FVec Ideal S100000x128 .f32) (X3 : FVec Ideal S100000x1 .f32) (X4 X5 X6 X7 : FVec Ideal S128x128 .bf16)
    (X8 : FVec Ideal S1x128 .f32) (i : Fin 100000) : Fin 128 → EReal := fun j' =>
  (((∑ k : Fin 128, X0 (ix2 i k) * X4 (ix2 k j')) + ∑ k : Fin 128, (X1 (ix2 i k) * X3 (ix2 i 0)) * X5 (ix2 k j'))
      + ∑ k : Fin 128, (X0 (ix2 i k) - X1 (ix2 i k) * X3 (ix2 i 0)) * X6 (ix2 k j'))
    + (∑ k : Fin 128, (X2 (ix2 i k) * X3 (ix2 i 0)) * X7 (ix2 k j')) + X8 (ix2 0 j')

/-- The result array, entry by entry, over the arrays the region finds. -/
def KG (c : Dev nD) : FVec Ideal S100000x128 .f32 := fun y =>
  Cert.Spec.lnRow
    (kzA (V m c main_arg0) (V m c main_v18) (V m c main_v32) (V m c main_v6) (V m c main_v46) (V m c main_v52) (V m c main_v58)
      (V m c main_v64) (V m c main_v65) (y 0))
    (fun j' => (V m c main_v66 : FVec Ideal S1x128 .f32) (ix2 0 j')) (fun j' => (V m c main_v67 : FVec Ideal S1x128 .f32) (ix2 0 j')) (y 1)

/-! ## The index maps, decided over the 25 grid points

A row-blocked window sits at block row t, block column 0; a whole-array window at block (0, 0). -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-- The grid has 25 points. -/
theorem grid_lt (t : Fin cfg0.N) : t.val < 25 := lt_of_lt_of_eq t.isLt N_0

/-! ## An array read through a window's block

A block's coordinate on an axis is (block index) × (block size) + 1 × (the coordinate inside the block). Each read is
stated for an arbitrary array `A` of the window's shape, then taken at the array the region finds. -/

/-- Any array read through window 0's block t: rows 4000·t … 4000·t + 3999, all 128 columns. -/
theorem read0_apply (A : FVec Ideal S100000x128 .f32) (t : Fin cfg0.N) (y : S4000x128.Idx) (i : S100000x128.Idx)
    (h0 : (i 0).val = 4000 * t.val + (y 0).val) (h1 : (i 1).val = (y 1).val) :
    ((cfg0.win 0).blk t).view.read (Elt Ideal) A y = A i := by
  obtain ⟨e0, e1⟩ := idx0 t
  have he : ((cfg0.win 0).blk t).view.emb y = i := by
    funext a
    apply Fin.ext
    match a with
    | ⟨0, _⟩ => show win0_0.index t (0 : Fin 2) * 4000 + 1 * (y 0).val = (i 0).val; omega
    | ⟨1, _⟩ => show win0_0.index t (1 : Fin 2) * 128 + 1 * (y 1).val = (i 1).val; omega
  show A (((cfg0.win 0).blk t).view.emb y) = A i
  exact congrArg A he

/-- Any array read through window 1's block t: rows 4000·t … 4000·t + 3999, all 128 columns. -/
theorem read1_apply (A : FVec Ideal S100000x128 .f32) (t : Fin cfg0.N) (y : S4000x128.Idx) (i : S100000x128.Idx)
    (h0 : (i 0).val = 4000 * t.val + (y 0).val) (h1 : (i 1).val = (y 1).val) :
    ((cfg0.win 1).blk t).view.read (Elt Ideal) A y = A i := by
  obtain ⟨e0, e1⟩ := idx1 t
  have he : ((cfg0.win 1).blk t).view.emb y = i := by
    funext a
    apply Fin.ext
    match a with
    | ⟨0, _⟩ => show win0_1.index t (0 : Fin 2) * 4000 + 1 * (y 0).val = (i 0).val; omega
    | ⟨1, _⟩ => show win0_1.index t (1 : Fin 2) * 128 + 1 * (y 1).val = (i 1).val; omega
  show A (((cfg0.win 1).blk t).view.emb y) = A i
  exact congrArg A he

/-- Any array read through window 2's block t: rows 4000·t … 4000·t + 3999, all 128 columns. -/
theorem read2_apply (A : FVec Ideal S100000x128 .f32) (t : Fin cfg0.N) (y : S4000x128.Idx) (i : S100000x128.Idx)
    (h0 : (i 0).val = 4000 * t.val + (y 0).val) (h1 : (i 1).val = (y 1).val) :
    ((cfg0.win 2).blk t).view.read (Elt Ideal) A y = A i := by
  obtain ⟨e0, e1⟩ := idx2 t
  have he : ((cfg0.win 2).blk t).view.emb y = i := by
    funext a
    apply Fin.ext
    match a with
    | ⟨0, _⟩ => show win0_2.index t (0 : Fin 2) * 4000 + 1 * (y 0).val = (i 0).val; omega
    | ⟨1, _⟩ => show win0_2.index t (1 : Fin 2) * 128 + 1 * (y 1).val = (i 1).val; omega
  show A (((cfg0.win 2).blk t).view.emb y) = A i
  exact congrArg A he

/-- Any one-column array read through window 3's block t: rows 4000·t … 4000·t + 3999. -/
theorem read3_apply (A : FVec Ideal S100000x1 .f32) (t : Fin cfg0.N) (y : S4000x1.Idx) (i : S100000x1.Idx)
    (h0 : (i 0).val = 4000 * t.val + (y 0).val) (h1 : (i 1).val = (y 1).val) :
    ((cfg0.win 3).blk t).view.read (Elt Ideal) A y = A i := by
  obtain ⟨e0, e1⟩ := idx3 t
  have he : ((cfg0.win 3).blk t).view.emb y = i := by
    funext a
    apply Fin.ext
    match a with
    | ⟨0, _⟩ => show win0_3.index t (0 : Fin 2) * 4000 + 1 * (y 0).val = (i 0).val; omega
    | ⟨1, _⟩ => show win0_3.index t (1 : Fin 2) * 1 + 1 * (y 1).val = (i 1).val; omega
  show A (((cfg0.win 3).blk t).view.emb y) = A i
  exact congrArg A he

/-- Any 128 × 128 array read through window 4's one block is the array. -/
theorem read4_apply (A : FVec Ideal S128x128 .bf16) (t : Fin cfg0.N) (y : S128x128.Idx) :
    ((cfg0.win 4).blk t).view.read (Elt Ideal) A y = A y := by
  obtain ⟨e0, e1⟩ := idx4 t
  have he : ((cfg0.win 4).blk t).view.emb y = y := by
    funext a
    apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  show A (((cfg0.win 4).blk t).view.emb y) = A y
  exact congrArg A he

/-- Any 128 × 128 array read through window 5's one block is the array. -/
theorem read5_apply (A : FVec Ideal S128x128 .bf16) (t : Fin cfg0.N) (y : S128x128.Idx) :
    ((cfg0.win 5).blk t).view.read (Elt Ideal) A y = A y := by
  obtain ⟨e0, e1⟩ := idx5 t
  have he : ((cfg0.win 5).blk t).view.emb y = y := by
    funext a
    apply Fin.ext
    match a with
    | ⟨0, _⟩ => show win0_5.index t (0 : Fin 2) * 128 + 1 * (y 0).val = (y 0).val; omega
    | ⟨1, _⟩ => show win0_5.index t (1 : Fin 2) * 128 + 1 * (y 1).val = (y 1).val; omega
  show A (((cfg0.win 5).blk t).view.emb y) = A y
  exact congrArg A he

/-- Any 128 × 128 array read through window 6's one block is the array. -/
theorem read6_apply (A : FVec Ideal S128x128 .bf16) (t : Fin cfg0.N) (y : S128x128.Idx) :
    ((cfg0.win 6).blk t).view.read (Elt Ideal) A y = A y := by
  obtain ⟨e0, e1⟩ := idx6 t
  have he : ((cfg0.win 6).blk t).view.emb y = y := by
    funext a
    apply Fin.ext
    match a with
    | ⟨0, _⟩ => show win0_6.index t (0 : Fin 2) * 128 + 1 * (y 0).val = (y 0).val; omega
    | ⟨1, _⟩ => show win0_6.index t (1 : Fin 2) * 128 + 1 * (y 1).val = (y 1).val; omega
  show A (((cfg0.win 6).blk t).view.emb y) = A y
  exact congrArg A he

/-- Any 128 × 128 array read through window 7's one block is the array. -/
theorem read7_apply (A : FVec Ideal S128x128 .bf16) (t : Fin cfg0.N) (y : S128x128.Idx) :
    ((cfg0.win 7).blk t).view.read (Elt Ideal) A y = A y := by
  obtain ⟨e0, e1⟩ := idx7 t
  have he : ((cfg0.win 7).blk t).view.emb y = y := by
    funext a
    apply Fin.ext
    match a with
    | ⟨0, _⟩ => show win0_7.index t (0 : Fin 2) * 128 + 1 * (y 0).val = (y 0).val; omega
    | ⟨1, _⟩ => show win0_7.index t (1 : Fin 2) * 128 + 1 * (y 1).val = (y 1).val; omega
  show A (((cfg0.win 7).blk t).view.emb y) = A y
  exact congrArg A he

/-- Any row vector read through window 8's one block is the vector. -/
theorem read8_apply (A : FVec Ideal S1x128 .f32) (t : Fin cfg0.N) (y : S1x128.Idx) :
    ((cfg0.win 8).blk t).view.read (Elt Ideal) A y = A y := by
  obtain ⟨e0, e1⟩ := idx8 t
  have he : ((cfg0.win 8).blk t).view.emb y = y := by
    funext a
    apply Fin.ext
    match a with
    | ⟨0, _⟩ => show win0_8.index t (0 : Fin 2) * 1 + 1 * (y 0).val = (y 0).val; omega
    | ⟨1, _⟩ => show win0_8.index t (1 : Fin 2) * 128 + 1 * (y 1).val = (y 1).val; omega
  show A (((cfg0.win 8).blk t).view.emb y) = A y
  exact congrArg A he

/-- Any row vector read through window 9's one block is the vector. -/
theorem read9_apply (A : FVec Ideal S1x128 .f32) (t : Fin cfg0.N) (y : S1x128.Idx) :
    ((cfg0.win 9).blk t).view.read (Elt Ideal) A y = A y := by
  obtain ⟨e0, e1⟩ := idx9 t
  have he : ((cfg0.win 9).blk t).view.emb y = y := by
    funext a
    apply Fin.ext
    match a with
    | ⟨0, _⟩ => show win0_9.index t (0 : Fin 2) * 1 + 1 * (y 0).val = (y 0).val; omega
    | ⟨1, _⟩ => show win0_9.index t (1 : Fin 2) * 128 + 1 * (y 1).val = (y 1).val; omega
  show A (((cfg0.win 9).blk t).view.emb y) = A y
  exact congrArg A he

/-- Any row vector read through window 10's one block is the vector. -/
theorem read10_apply (A : FVec Ideal S1x128 .f32) (t : Fin cfg0.N) (y : S1x128.Idx) :
    ((cfg0.win 10).blk t).view.read (Elt Ideal) A y = A y := by
  obtain ⟨e0, e1⟩ := idx10 t
  have he : ((cfg0.win 10).blk t).view.emb y = y := by
    funext a
    apply Fin.ext
    match a with
    | ⟨0, _⟩ => show win0_10.index t (0 : Fin 2) * 1 + 1 * (y 0).val = (y 0).val; omega
    | ⟨1, _⟩ => show win0_10.index t (1 : Fin 2) * 128 + 1 * (y 1).val = (y 1).val; omega
  show A (((cfg0.win 10).blk t).view.emb y) = A y
  exact congrArg A he

/-! ## The blocks the body reads, as entries of the arrays the region finds -/

/-- Block t of window 0: rows 4000·t … 4000·t + 3999 of the first array. -/
theorem blk0_apply (c : Dev nD) (t : Fin cfg0.N) (y : S4000x128.Idx) (i : S100000x128.Idx)
    (h0 : (i 0).val = 4000 * t.val + (y 0).val) (h1 : (i 1).val = (y 1).val) :
    (iblk m c 0 t : Vec Ideal S4000x128 .f32) y = (V m c main_arg0 : FVec Ideal S100000x128 .f32) i :=
  read0_apply (V m c main_arg0) t y i h0 h1

/-- Block t of window 1: rows 4000·t … 4000·t + 3999 of the second array. -/
theorem blk1_apply (c : Dev nD) (t : Fin cfg0.N) (y : S4000x128.Idx) (i : S100000x128.Idx)
    (h0 : (i 0).val = 4000 * t.val + (y 0).val) (h1 : (i 1).val = (y 1).val) :
    (iblk m c 1 t : Vec Ideal S4000x128 .f32) y = (V m c main_v18 : FVec Ideal S100000x128 .f32) i :=
  read1_apply (V m c main_v18) t y i h0 h1

/-- Block t of window 2: rows 4000·t … 4000·t + 3999 of the third array. -/
theorem blk2_apply (c : Dev nD) (t : Fin cfg0.N) (y : S4000x128.Idx) (i : S100000x128.Idx)
    (h0 : (i 0).val = 4000 * t.val + (y 0).val) (h1 : (i 1).val = (y 1).val) :
    (iblk m c 2 t : Vec Ideal S4000x128 .f32) y = (V m c main_v32 : FVec Ideal S100000x128 .f32) i :=
  read2_apply (V m c main_v32) t y i h0 h1

/-- Block t of window 3: rows 4000·t … 4000·t + 3999 of the one-column array. -/
theorem blk3_apply (c : Dev nD) (t : Fin cfg0.N) (y : S4000x1.Idx) (i : S100000x1.Idx)
    (h0 : (i 0).val = 4000 * t.val + (y 0).val) (h1 : (i 1).val = (y 1).val) :
    (iblk m c 3 t : Vec Ideal S4000x1 .f32) y = (V m c main_v6 : FVec Ideal S100000x1 .f32) i :=
  read3_apply (V m c main_v6) t y i h0 h1

/-- Window 4's one block is its whole array. -/
theorem blk4_apply (c : Dev nD) (t : Fin cfg0.N) (y : S128x128.Idx) :
    (iblk m c 4 t : Vec Ideal S128x128 .bf16) y = (V m c main_v46 : FVec Ideal S128x128 .bf16) y :=
  read4_apply (V m c main_v46) t y

/-- Window 5's one block is its whole array. -/
theorem blk5_apply (c : Dev nD) (t : Fin cfg0.N) (y : S128x128.Idx) :
    (iblk m c 5 t : Vec Ideal S128x128 .bf16) y = (V m c main_v52 : FVec Ideal S128x128 .bf16) y :=
  read5_apply (V m c main_v52) t y

/-- Window 6's one block is its whole array. -/
theorem blk6_apply (c : Dev nD) (t : Fin cfg0.N) (y : S128x128.Idx) :
    (iblk m c 6 t : Vec Ideal S128x128 .bf16) y = (V m c main_v58 : FVec Ideal S128x128 .bf16) y :=
  read6_apply (V m c main_v58) t y

/-- Window 7's one block is its whole array. -/
theorem blk7_apply (c : Dev nD) (t : Fin cfg0.N) (y : S128x128.Idx) :
    (iblk m c 7 t : Vec Ideal S128x128 .bf16) y = (V m c main_v64 : FVec Ideal S128x128 .bf16) y :=
  read7_apply (V m c main_v64) t y

/-- Window 8's one block is its whole row vector. -/
theorem blk8_apply (c : Dev nD) (t : Fin cfg0.N) (y : S1x128.Idx) :
    (iblk m c 8 t : Vec Ideal S1x128 .f32) y = (V m c main_v65 : FVec Ideal S1x128 .f32) y :=
  read8_apply (V m c main_v65) t y

/-- Window 9's one block is its whole row vector. -/
theorem blk9_apply (c : Dev nD) (t : Fin cfg0.N) (y : S1x128.Idx) :
    (iblk m c 9 t : Vec Ideal S1x128 .f32) y = (V m c main_v66 : FVec Ideal S1x128 .f32) y :=
  read9_apply (V m c main_v66) t y

/-- Window 10's one block is its whole row vector. -/
theorem blk10_apply (c : Dev nD) (t : Fin cfg0.N) (y : S1x128.Idx) :
    (iblk m c 10 t : Vec Ideal S1x128 .f32) y = (V m c main_v67 : FVec Ideal S1x128 .f32) y :=
  read10_apply (V m c main_v67) t y

/-! ## Row r of the blocks is row i of the arrays -/

/-- The pre-normalisation row over blocks that hold row `i` of the row-blocked arrays at their row `r`, and the whole of
    the weights and the bias, is the pre-normalisation row `i` over the arrays. -/
theorem kz_eq_kzA (x0 x1 x2 : Vec Ideal S4000x128 .f32) (x3 : Vec Ideal S4000x1 .f32) (x4 x5 x6 x7 : Vec Ideal S128x128 .bf16)
    (x8 : Vec Ideal S1x128 .f32)
    (X0 X1 X2 : FVec Ideal S100000x128 .f32) (X3 : FVec Ideal S100000x1 .f32) (X4 X5 X6 X7 : FVec Ideal S128x128 .bf16)
    (X8 : FVec Ideal S1x128 .f32) (r : Fin 4000) (i : Fin 100000)
    (h0 : ∀ k : Fin 128, x0 (ix2 r k) = X0 (ix2 i k)) (h1 : ∀ k : Fin 128, x1 (ix2 r k) = X1 (ix2 i k))
    (h2 : ∀ k : Fin 128, x2 (ix2 r k) = X2 (ix2 i k)) (h3 : x3 (ix2 r 0) = X3 (ix2 i 0))
    (h4 : ∀ y, x4 y = X4 y) (h5 : ∀ y, x5 y = X5 y) (h6 : ∀ y, x6 y = X6 y) (h7 : ∀ y, x7 y = X7 y) (h8 : ∀ y, x8 y = X8 y) :
    kz x0 x1 x2 x3 x4 x5 x6 x7 x8 r = kzA X0 X1 X2 X3 X4 X5 X6 X7 X8 i := by
  funext j'
  unfold kz kzA
  simp only [h0, h1, h2, h3, h4, h5, h6, h7, h8]

/-- LayerNorm of a row depends only on the row, the gain and the offset. -/
theorem lnRow_congr (z z' g g' b b' : Fin 128 → EReal) (j : Fin 128)
    (hz : z = z') (hg : ∀ j', g j' = g' j') (hb : ∀ j', b j' = b' j') :
    Cert.Spec.lnRow z g b j = Cert.Spec.lnRow z' g' b' j := by
  obtain rfl := hz
  obtain rfl : g = g' := funext hg
  obtain rfl : b = b' := funext hb
  rfl

/-- The result array at row `i`, column `j`. -/
theorem KG_at (c : Dev nD) (i : Fin 100000) (j : Fin 128) :
    KG m c (ix2 i j) = Cert.Spec.lnRow
      (kzA (V m c main_arg0) (V m c main_v18) (V m c main_v32) (V m c main_v6) (V m c main_v46) (V m c main_v52) (V m c main_v58)
        (V m c main_v64) (V m c main_v65) i)
      (fun j' => (V m c main_v66 : FVec Ideal S1x128 .f32) (ix2 0 j')) (fun j' => (V m c main_v67 : FVec Ideal S1x128 .f32) (ix2 0 j')) j :=
  rfl

/-! ## What point t writes back -/

/-- Entry (r, j) of the result window's block t is entry (4000·t + r, j) of the result array. -/
theorem emb11 (t : Fin cfg0.N) (r : Fin 4000) (j : Fin 128) (i : Fin 100000) (hi : i.val = 4000 * t.val + r.val) :
    ((cfg0.win 11).blk t).view.emb (ix2 r j : S4000x128.Idx) = (ix2 i j : S100000x128.Idx) := by
  obtain ⟨e0, e1⟩ := idx11 t
  funext a
  apply Fin.ext
  match a with
  | ⟨0, _⟩ => show win0_11.index t (0 : Fin 2) * 4000 + 1 * r.val = i.val; omega
  | ⟨1, _⟩ => show win0_11.index t (1 : Fin 2) * 128 + 1 * j.val = j.val; omega

/-- The body's result over the blocks at point t, entry by entry, is the result array at the entry the block puts there. -/
theorem out_at (c : Dev nD) (t : Fin cfg0.N) (y : S4000x128.Idx) :
    out0_11 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) y
      = KG m c (((cfg0.win 11).blk t).view.emb y) := by
  have ht : t.val < 25 := grid_lt t
  obtain ⟨r, j, rfl⟩ : ∃ (r : Fin 4000) (j : Fin 128), y = ix2 r j := ⟨y 0, y 1, eq_ix2 y⟩
  have hr : r.val < 4000 := r.isLt
  have hi : 4000 * t.val + r.val < 100000 := by omega
  rw [emb11 t r j ⟨4000 * t.val + r.val, hi⟩ rfl, KG_at, out_apply]
  refine lnRow_congr _ _ _ _ _ _ j ?_ ?_ ?_
  · exact kz_eq_kzA (iblk m c 0 t) (iblk m c 1 t) (iblk m c 2 t) (iblk m c 3 t) (iblk m c 4 t) (iblk m c 5 t) (iblk m c 6 t)
      (iblk m c 7 t) (iblk m c 8 t)
      (V m c main_arg0) (V m c main_v18) (V m c main_v32) (V m c main_v6) (V m c main_v46) (V m c main_v52) (V m c main_v58)
      (V m c main_v64) (V m c main_v65) r ⟨4000 * t.val + r.val, hi⟩
      (fun k => blk0_apply m c t (ix2 r k) (ix2 ⟨4000 * t.val + r.val, hi⟩ k) rfl rfl)
      (fun k => blk1_apply m c t (ix2 r k) (ix2 ⟨4000 * t.val + r.val, hi⟩ k) rfl rfl)
      (fun k => blk2_apply m c t (ix2 r k) (ix2 ⟨4000 * t.val + r.val, hi⟩ k) rfl rfl)
      (blk3_apply m c t (ix2 r 0) (ix2 ⟨4000 * t.val + r.val, hi⟩ 0) rfl rfl)
      (blk4_apply m c t) (blk5_apply m c t) (blk6_apply m c t) (blk7_apply m c t) (blk8_apply m c t)
  · intro j'
    exact blk9_apply m c t (ix2 0 j')
  · intro j'
    exact blk10_apply m c t (ix2 0 j')

/-- The result window is never cut at the array's end: what is written back of a block is the block. -/
theorem cut11_apply (t : Fin cfg0.N) (X : Vec Ideal S4000x128 .f32) (y : S4000x128.Idx) :
    (cfg0.win 11).cut (grid0.coords t) X y = X y := rfl

/-- An array read through the result window's block t, at an entry of the block. -/
theorem read11_apply (t : Fin cfg0.N) (G : FVec Ideal S100000x128 .f32) (y : S4000x128.Idx) :
    ((cfg0.win 11).blk t).view.read (Elt Ideal) G y = G (((cfg0.win 11).blk t).view.emb y) := rfl

/-- What point t writes back is block t of the result array `KG`. -/
theorem flushed_eq (c : Dev nD) (t : Fin cfg0.N) :
    (dats m 0 c).flushed 11 t = ((cfg0.win 11).blk t).view.read (Elt Ideal) (KG m c) := by
  rw [Value.flushed11]
  funext y
  rw [cut11_apply, read11_apply]
  exact out_at m c t y

/-! ## The blocks cover the array -/

/-- An index of the result array is in point t's block iff each coordinate is in the block's range on its axis. -/
theorem mem_blk (t : Fin cfg0.N) (i : S100000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v68).slice (win0_11.rect t)).set ↔ _
  rw [View.set_slice_whole, Rect.mem_set_unit]
  exact Iff.rfl

/-- Row i of the result array is in the block of point ⌊i / 4000⌋, which writes back. -/
theorem cover (i : S100000x128.Idx) :
    ∃ t : Fin cfg0.N, (cfg0.win 11).flush t = true ∧ i ∈ ((cfg0.win 11).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, lt_of_lt_of_eq (by omega : (i 0).val / 4000 < 25) N_0.symm⟩, rfl⟩
  obtain ⟨e0, e1⟩ := idx11 t
  refine ⟨t, flush0_11 t, ?_⟩
  rw [mem_blk]
  intro a
  match a with
  | ⟨0, _⟩ =>
    show win0_11.index t (0 : Fin 2) * 4000 ≤ (i 0).val ∧ (i 0).val < win0_11.index t (0 : Fin 2) * 4000 + 4000
    omega
  | ⟨1, _⟩ =>
    show win0_11.index t (1 : Fin 2) * 128 ≤ (i 1).val ∧ (i 1).val < win0_11.index t (1 : Fin 2) * 128 + 128
    omega

/-- After the run the result array is `KG`. -/
theorem final (c : Dev nD) : (dats m 0 c).arrAt 11 cfg0.N = KG m c :=
  (dats m 0 c).arrAt_eq_of_cover 11 (KG m c) (fun t _ => flushed_eq m c t) cover

/-- The kernel's run with its result named. -/
theorem run_KG : θ_run defs (onTc (τ := τ) (main (F := Ideal))) ⟨m, fun _ => 0, ρ⟩ fun r => ∀ c : Dev nD,
      r.2.mem ((c : Thread nD τ).loc main_v68) = KG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelIdeal.KerValue

end
-- ==== Proof.KerTerm.lean ====
/-
  What the kernel's program computes on the host before its one region, named piece by piece: the edge endpoints, the
  aggregation `aggK` (a gather then a scatter-add, through a narrowing and a widening of the float format), the
  reciprocal degree column, the first-hop mean `nb1K = S1 · (1 / deg)`, the branch scales and the scaled, transposed
  weights. Nothing is proved here; the host module shows the region finds its windows' arrays at these terms.
-/
import proofs.«422799_j39273180955310_3_alg».proof.Proof.Gen.KernelIdeal

noncomputable section

namespace Cert.KernelIdeal.KerValue

open Cert.KernelIdeal Cert.KernelIdeal.Gen Idealize.ShloMosaic Idealize.ShloMosaic.TcCoe

variable {F : FTy → Type} [FloatOps F]

def srcRaw (e : IVec S2x1600000 32) : IVec S1600000 32 :=
  shapeCast S1600000 (extractStridedSlice S1x1600000 ![0, 0] e slices_S2x1600000_S1x1600000_0_0) shapeCasts_S1x1600000_S1600000
def dstRaw (e : IVec S2x1600000 32) : IVec S1600000 32 :=
  shapeCast S1600000 (extractStridedSlice S1x1600000 ![1, 0] e slices_S2x1600000_S1x1600000_1_0) shapeCasts_S1x1600000_S1600000

/-- The gather's index column: a negative source number wraps by the node count. -/
def srcIdx (e : IVec S2x1600000 32) : IVec S1600000x1 32 :=
  broadcastInDim S1600000x1 ![0] bcast_S1600000_S1600000x1_0
    (select (cmpi .slt (srcRaw e) (broadcastInDim S1600000 ![] bcast_S_S1600000 (constantI S_ 32 0#32)))
      (addi (srcRaw e) (broadcastInDim S1600000 ![] bcast_S_S1600000 (constantI S_ 32 100000#32))) (srcRaw e))
def dstIdx (e : IVec S2x1600000 32) : IVec S1600000x1 32 :=
  broadcastInDim S1600000x1 ![0] bcast_S1600000_S1600000x1_0 (dstRaw e)

/-- Sum over incoming edges, the gathered rows passing through the narrower float format and back. -/
def aggK (e : IVec S2x1600000 32) (x : FVec F S100000x128 .f32) : FVec F S100000x128 .f32 :=
  Host.scatterAdd scatter_S100000x128_S1600000x1_S1600000x128_1_0_0_1
    (broadcastInDim S100000x128 ![] bcast_S_S100000x128 (constant S_ .f32 0x00000000#32)) (dstIdx e)
    (extf .f32 (Host.gather gather_S100000x128_S1600000x1_S1600000x128_1_0_n_n_0_1_1128 (truncf .bf16 x bitsLt_bf16_f32) (srcIdx e))
      bitsLt_bf16_f32)

/-- The reciprocal degrees as a column. -/
def invdeg (deg : FVec F S100000 .f32) : FVec F S100000x1 .f32 :=
  shapeCast S100000x1 (Host.divf (broadcastInDim S100000 ![] bcast_S_S100000 (constant S_ .f32 0x3F800000#32)) deg)
    shapeCasts_S100000_S100000x1

/-- The first-hop mean as the host computes it: the sum times the reciprocal degree. -/
def nb1K (S : FVec F S100000x128 .f32) (deg : FVec F S100000 .f32) : FVec F S100000x128 .f32 :=
  mulf S (broadcastInDim S100000x128 ![0, 1] bcast_S100000x1_S100000x128_0_1 (invdeg deg))

def scales (l : FVec F S4 .f32) : FVec F S4 .f32 :=
  mulf (broadcastInDim S4 ![] bcast_S_S4 (constant S_ .f32 0x40000000#32))
    (Host.divf (broadcastInDim S4 ![] bcast_S_S4 (constant S_ .f32 0x3F800000#32))
      (addf (broadcastInDim S4 ![] bcast_S_S4 (constant S_ .f32 0x3F800000#32)) (Host.exp (Host.negf l))))

def scaleAt (l : FVec F S4 .f32) (off : Fin S4.rank → Nat) (hs : S4.Slices off S1) : FVec F S_ .f32 :=
  shapeCast S_ (extractStridedSlice S1 off (scales l) hs) shapeCasts_S1_S_

/-- A branch's weight as the region finds it: transposed, times the branch scale. -/
def wK (l : FVec F S4 .f32) (off : Fin S4.rank → Nat) (hs : S4.Slices off S1) (W : FVec F S128x128 .f32) : FVec F S128x128 .bf16 :=
  truncf .bf16 (mulf (broadcastInDim S128x128 ![] bcast_S_S128x128 (scaleAt l off hs))
    (transpose S128x128 [1, 0] W transposes_S128x128_S128x128_1_0)) bitsLt_bf16_f32

/-- A 128-vector as a one-row matrix. -/
def row1 (v : FVec F S128 .f32) : FVec F S1x128 .f32 := shapeCast S1x128 v shapeCasts_S128_S1x128

end Cert.KernelIdeal.KerValue

end
-- ==== Proof.KerHost.lean ====
/-
  The arrays the region's windows stage, as the host operations before it leave them: each is the named term of the
  argument arrays (the aggregation of `h`, of the first-hop mean, the reciprocal degrees, the four scaled weights, the
  three row vectors).

  Each reading unrolls the list of host operations up to the one that writes the array: an operation's result at its
  own reference is its function at its operands' contents, at any other reference the contents are unchanged (the
  references are distinct by decision). What is left is the composed term of the argument arrays, and it is the named
  term by unfolding definitions: a reshape's result is the shape cast itself (an eta expansion), an argument's contents
  at the device reference are the contents at the thread's location.
-/
import proofs.«422799_j39273180955310_3_alg».proof.Proof.Gen.KernelIdeal.Frame
import proofs.«422799_j39273180955310_3_alg».proof.Proof.KerTerm
import Idealize.ShloMosaic.Lib.StableHlo.Run

set_option maxHeartbeats 4000000

noncomputable section

namespace Cert.KernelIdeal.KerValue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The argument arrays as launched, at their literal types. -/
abbrev aH (c : Dev nD) : FVec F S100000x128 .f32 := m ((c : Thread nD τ).loc main_arg0)
abbrev aE (c : Dev nD) : IVec S2x1600000 32 := m ((c : Thread nD τ).loc main_arg1)
abbrev aDeg (c : Dev nD) : FVec F S100000 .f32 := m ((c : Thread nD τ).loc main_arg2)
abbrev aWs (c : Dev nD) : FVec F S128x128 .f32 := m ((c : Thread nD τ).loc main_arg3)
abbrev aWn1 (c : Dev nD) : FVec F S128x128 .f32 := m ((c : Thread nD τ).loc main_arg4)
abbrev aWhp (c : Dev nD) : FVec F S128x128 .f32 := m ((c : Thread nD τ).loc main_arg5)
abbrev aWn2 (c : Dev nD) : FVec F S128x128 .f32 := m ((c : Thread nD τ).loc main_arg6)
abbrev aBias (c : Dev nD) : FVec F S128 .f32 := m ((c : Thread nD τ).loc main_arg7)
abbrev aLogits (c : Dev nD) : FVec F S4 .f32 := m ((c : Thread nD τ).loc main_arg8)
abbrev aGamma (c : Dev nD) : FVec F S128 .f32 := m ((c : Thread nD τ).loc main_arg9)
abbrev aBeta (c : Dev nD) : FVec F S128 .f32 := m ((c : Thread nD τ).loc main_arg10)

theorem V_v18 (c : Dev nD) : (V m c main_v18 : FVec F S100000x128 .f32) = aggK (aE m c) (aH m c) := by
  dsimp only [Gen.V, Gen.hostOps0]
  after_results_simp
  rfl
theorem V_v32 (c : Dev nD) : (V m c main_v32 : FVec F S100000x128 .f32) = aggK (aE m c) (nb1K (aggK (aE m c) (aH m c)) (aDeg m c)) := by
  dsimp only [Gen.V, Gen.hostOps0]
  after_results_simp
  rfl
theorem V_v6 (c : Dev nD) : (V m c main_v6 : FVec F S100000x1 .f32) = invdeg (aDeg m c) := by
  dsimp only [Gen.V, Gen.hostOps0]
  after_results_simp
  rfl
theorem V_v46 (c : Dev nD) : (V m c main_v46 : FVec F S128x128 .bf16) = wK (aLogits m c) ![0] slices_S4_S1_0 (aWs m c) := by
  dsimp only [Gen.V, Gen.hostOps0]
  after_results_simp
  rfl
theorem V_v52 (c : Dev nD) : (V m c main_v52 : FVec F S128x128 .bf16) = wK (aLogits m c) ![1] slices_S4_S1_1 (aWn1 m c) := by
  dsimp only [Gen.V, Gen.hostOps0]
  after_results_simp
  rfl
theorem V_v58 (c : Dev nD) : (V m c main_v58 : FVec F S128x128 .bf16) = wK (aLogits m c) ![2] slices_S4_S1_2 (aWhp m c) := by
  dsimp only [Gen.V, Gen.hostOps0]
  after_results_simp
  rfl
theorem V_v64 (c : Dev nD) : (V m c main_v64 : FVec F S128x128 .bf16) = wK (aLogits m c) ![3] slices_S4_S1_3 (aWn2 m c) := by
  dsimp only [Gen.V, Gen.hostOps0]
  after_results_simp
  rfl
theorem V_v65 (c : Dev nD) : (V m c main_v65 : FVec F S1x128 .f32) = row1 (aBias m c) := by
  dsimp only [Gen.V, Gen.hostOps0]
  after_results_simp
  rfl
theorem V_v66 (c : Dev nD) : (V m c main_v66 : FVec F S1x128 .f32) = row1 (aGamma m c) := by
  dsimp only [Gen.V, Gen.hostOps0]
  after_results_simp
  rfl
theorem V_v67 (c : Dev nD) : (V m c main_v67 : FVec F S1x128 .f32) = row1 (aBeta m c) := by
  dsimp only [Gen.V, Gen.hostOps0]
  after_results_simp
  rfl

end Cert.KernelIdeal.KerValue

end
-- ==== Proof.KerRead.lean ====
/-
  Three reads at an index of the host's terms: a branch scale is twice the logistic of its logit; a scaled, transposed
  weight at (k, j) is that scale times the transposed weight there; a 128-vector laid out as one row, read at (0, j), is
  the vector at j.
-/
import proofs.«422799_j39273180955310_3_alg».proof.Proof.KerTerm
import proofs.«422799_j39273180955310_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerValue

open Cert.KernelIdeal Cert.KernelIdeal.Gen Idealize.ShloMosaic Idealize.ShloMosaic.TcCoe Idealize.ShloMosaic.ValueIdx

/-- The branch scale cut out at offset q is twice the logistic of logit q. -/
theorem scaleAt_apply (l : FVec Ideal S4 .f32) (q : Fin 4) (off : Fin S4.rank → Nat) (hs : S4.Slices off S1) (hoff : off 0 = q.val) :
    scaleAt l off hs ix0 = Cert.Spec.scale (l (ix1 q)) := by
  unfold scaleAt scales Cert.Spec.scale
  -- the scalar is the one element of the slice; the slice's element 0 is the vector's element q
  refine (shapeCast_apply _ shapeCasts_S1_S_ ix0 (ix1 (0 : Fin 1)) ?_).trans ?_
  · rw [Shape.rowMajor_val_one]
    rfl
  refine (extractStridedSlice_apply off _ hs (ix1 (0 : Fin 1)) (ix1 q) ?_).trans ?_
  · intro a
    match a with
    | ⟨0, _⟩ => show q.val = off 0 + 0; omega
  -- a broadcast scalar literal read anywhere is the literal's value; the rest is pointwise
  have hb : ∀ w : BitVec 32, broadcastInDim S4 ![] bcast_S_S4 (constant (F := Ideal) S_ .f32 w) (ix1 q) = Ideal.ofBits .f32 w :=
    fun w => broadcastInDim_apply ![] bcast_S_S4 _ (ix1 q) ix0 (fun a => a.elim0)
  show broadcastInDim S4 ![] bcast_S_S4 (constant (F := Ideal) S_ .f32 0x40000000#32) (ix1 q)
      * Ideal.div (broadcastInDim S4 ![] bcast_S_S4 (constant (F := Ideal) S_ .f32 0x3F800000#32) (ix1 q))
          (broadcastInDim S4 ![] bcast_S_S4 (constant (F := Ideal) S_ .f32 0x3F800000#32) (ix1 q) + Ideal.exp (-(l (ix1 q)))) = _
  rw [hb, hb]

/-- A branch's weight as the region finds it, at (k, j): the scale times the transposed weight there. -/
theorem wK_apply (l : FVec Ideal S4 .f32) (off : Fin S4.rank → Nat) (hs : S4.Slices off S1) (W : FVec Ideal S128x128 .f32) (k j : Fin 128) :
    wK l off hs W (ix2 k j) = scaleAt l off hs ix0 * (transpose S128x128 [1, 0] W transposes_S128x128_S128x128_1_0) (ix2 k j) := by
  unfold wK
  -- the narrowing is the identity and the product pointwise; the broadcast scalar read at (k, j) is the scalar
  show broadcastInDim S128x128 ![] bcast_S_S128x128 (scaleAt l off hs) (ix2 k j) * _ = _
  rw [broadcastInDim_apply ![] bcast_S_S128x128 (scaleAt l off hs) (ix2 k j) ix0 (fun a => a.elim0)]

/-- A 128-vector as a one-row matrix, at (0, j). -/
theorem row1_apply (v : FVec Ideal S128 .f32) (j : Fin 128) : row1 v (ix2 0 j) = v (ix1 j) := by
  unfold row1
  -- position j of the vector and position (0, j) of the one-row matrix are the same row-major position
  refine shapeCast_apply v shapeCasts_S128_S1x128 (ix2 0 j) (ix1 j) ?_
  rw [Shape.rowMajor_val_one, Shape.rowMajor_val_two]
  show j.val = 0 * 128 + j.val
  omega

end Cert.KernelIdeal.KerValue

end
-- ==== Proof.RefRead.lean ====
/-
  The reference's result read at an element: entry (i, j) of `refTerm` is LayerNorm, along row i, of the
  pre-normalisation row in the reference's arrangement — each matrix product a sum over the contracted axis scaled
  afterwards, the two row reductions sums over the row from zero, jnp.var's guarded divisor the literal 128.
-/
import proofs.«422799_j39273180955310_3_alg».proof.Proof.RefTerm
import proofs.«422799_j39273180955310_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx

/-- Row `i` of a 100000 × 128 array; a 128 × 128 matrix by its two coordinates; a 128-vector by its coordinate. -/
def rowOf (x : FVec Ideal S100000x128 .f32) (i : Fin 100000) : Fin 128 → EReal := fun k => x (ix2 i k)
def matOf (W : FVec Ideal S128x128 .f32) : Fin 128 → Fin 128 → EReal := fun k j => W (ix2 k j)
def vecOf (v : FVec Ideal S128 .f32) : Fin 128 → EReal := fun j => v (ix1 j)

/-! ## A matrix product read at an element -/

theorem dot_lhs_0 (j : S100000x128.Idx) (q : dot_S100000x128_S128x128_S100000x128_1_0_0_1_n_n.contr.Idx) :
    (dot_S100000x128_S128x128_S100000x128_1_0_0_1_n_n.lhsIdx j q (0 : Fin 2) : ℕ) = (j (0 : Fin 2) : ℕ) := by
  simp [DotDims.lhsIdx, dot_S100000x128_S128x128_S100000x128_1_0_0_1_n_n]; rfl

theorem dot_lhs_1 (j : S100000x128.Idx) (q : dot_S100000x128_S128x128_S100000x128_1_0_0_1_n_n.contr.Idx) :
    (dot_S100000x128_S128x128_S100000x128_1_0_0_1_n_n.lhsIdx j q (1 : Fin 2) : ℕ) = (q ⟨0, by decide⟩ : ℕ) :=
  dot_S100000x128_S128x128_S100000x128_1_0_0_1_n_n.lhsIdx_val_of_single (cl := (1 : Fin 2)) rfl j q

theorem dot_rhs_0 (j : S100000x128.Idx) (q : dot_S100000x128_S128x128_S100000x128_1_0_0_1_n_n.contr.Idx) :
    (dot_S100000x128_S128x128_S100000x128_1_0_0_1_n_n.rhsIdx j q (0 : Fin 2) : ℕ) = (q ⟨0, by decide⟩ : ℕ) :=
  dot_S100000x128_S128x128_S100000x128_1_0_0_1_n_n.rhsIdx_val_of_single (cr := (0 : Fin 2)) rfl j q

theorem dot_rhs_1 (j : S100000x128.Idx) (q : dot_S100000x128_S128x128_S100000x128_1_0_0_1_n_n.contr.Idx) :
    (dot_S100000x128_S128x128_S100000x128_1_0_0_1_n_n.rhsIdx j q (1 : Fin 2) : ℕ) = (j (1 : Fin 2) : ℕ) := by
  simp [DotDims.rhsIdx, dot_S100000x128_S128x128_S100000x128_1_0_0_1_n_n]; rfl

/-- Entry (i, j) of the product of a 100000 × 128 array with a 128 × 128 matrix is the sum over the contracted coordinate. -/
theorem dot_apply (x : FVec Ideal S100000x128 .f32) (w : FVec Ideal S128x128 .f32) (i : Fin 100000) (j : Fin 128) :
    Host.dotGeneral dot_S100000x128_S128x128_S100000x128_1_0_0_1_n_n none x w (ix2 i j)
      = ∑ k : Fin 128, x (ix2 i k) * w (ix2 k j) := by
  simp only [Host.dotGeneral]
  rw [Ideal.dotGeneral_apply,
    ← Equiv.sum_comp (contrEquiv1 dot_S100000x128_S128x128_S100000x128_1_0_0_1_n_n 128 rfl rfl).symm]
  refine Finset.sum_congr rfl fun k _ => ?_
  have ck := contrEquiv1_symm_val dot_S100000x128_S128x128_S100000x128_1_0_0_1_n_n 128 rfl rfl k
  have el : dot_S100000x128_S128x128_S100000x128_1_0_0_1_n_n.lhsIdx (ix2 i j)
      ((contrEquiv1 dot_S100000x128_S128x128_S100000x128_1_0_0_1_n_n 128 rfl rfl).symm k) = ix2 i k := by
    funext ax; apply Fin.ext
    match ax with
    | ⟨0, _⟩ => exact dot_lhs_0 _ _
    | ⟨1, _⟩ => exact (dot_lhs_1 _ _).trans ck
  have er : dot_S100000x128_S128x128_S100000x128_1_0_0_1_n_n.rhsIdx (ix2 i j)
      ((contrEquiv1 dot_S100000x128_S128x128_S100000x128_1_0_0_1_n_n 128 rfl rfl).symm k) = ix2 k j := by
    funext ax; apply Fin.ext
    match ax with
    | ⟨0, _⟩ => exact (dot_rhs_0 _ _).trans ck
    | ⟨1, _⟩ => exact dot_rhs_1 _ _
  rw [el, er]

/-! ## Broadcasts read at an element -/

/-- A rank-0 array spread over the 100000 × 128 array reads its one entry everywhere. -/
theorem splat_apply (s : FVec Ideal S_ .f32) (i : Fin 100000) (j : Fin 128) :
    broadcastInDim S100000x128 ![] bcast_S_S100000x128 s (ix2 i j) = s ix0 :=
  broadcastInDim_apply ![] bcast_S_S100000x128 s (ix2 i j) ix0 (fun a => a.elim0)

/-- A 128-vector spread over the rows reads its coordinate j at (i, j). -/
theorem rowB_apply (v : FVec Ideal S128 .f32) (i : Fin 100000) (j : Fin 128) : rowB v (ix2 i j) = v (ix1 j) := by
  unfold rowB
  refine (broadcastInDim_apply ![0, 1] bcast_S1x128_S100000x128_0_1 _ (ix2 i j) (ix2 (0 : Fin 1) j)
    (fun a => match a with | ⟨0, _⟩ => rfl | ⟨1, _⟩ => rfl)).trans ?_
  exact broadcastInDim_apply ![1] bcast_S128_S1x128_1 v (ix2 (0 : Fin 1) j) (ix1 j) (fun a => match a with | ⟨0, _⟩ => rfl)

/-- A branch at (i, j): the scale times the sum over the contracted coordinate. -/
theorem branch_apply (s : FVec Ideal S_ .f32) (x : FVec Ideal S100000x128 .f32) (W : FVec Ideal S128x128 .f32)
    (i : Fin 100000) (j : Fin 128) :
    branch s x W (ix2 i j) = s ix0 * ∑ k : Fin 128, x (ix2 i k) * wT W (ix2 k j) := by
  unfold branch
  rw [mulf_apply, splat_apply, dot_apply]

/-- The pre-normalisation array at row i is the reference's arrangement of that row. -/
theorem zArr_row (h n1 n2 : FVec Ideal S100000x128 .f32) (Ws Wn1 Whp Wn2 : FVec Ideal S128x128 .f32) (bias : FVec Ideal S128 .f32)
    (l : FVec Ideal S4 .f32) (i : Fin 100000) :
    rowOf (zArr h n1 n2 Ws Wn1 Whp Wn2 bias l) i
      = Cert.Spec.zRow (rowOf h i) (rowOf n1 i) (rowOf n2 i) (matOf (wT Ws)) (matOf (wT Wn1)) (matOf (wT Whp)) (matOf (wT Wn2)) (vecOf bias)
          (scaleAt l ![0] slices_S4_S1_0 ix0) (scaleAt l ![1] slices_S4_S1_1 ix0) (scaleAt l ![2] slices_S4_S1_2 ix0) (scaleAt l ![3] slices_S4_S1_3 ix0) := by
  funext j
  show zArr h n1 n2 Ws Wn1 Whp Wn2 bias l (ix2 i j) = _
  unfold zArr
  rw [addf_apply, addf_apply, addf_apply, addf_apply, branch_apply, branch_apply, branch_apply, branch_apply, rowB_apply]
  rfl

/-! ## The row reductions and LayerNorm read at an element -/

/-- A column spread over the 128 features reads the column's entry of row i. -/
theorem colB_apply (v : FVec Ideal S100000x1 .f32) (i : Fin 100000) (j : Fin 128) :
    colB v (ix2 i j) = v (ix2 i (0 : Fin 1)) := by
  unfold colB
  exact broadcastInDim_apply ![0, 1] bcast_S100000x1_S100000x128_0_1 v (ix2 i j) (ix2 i (0 : Fin 1))
    (fun a => match a with | ⟨0, _⟩ => rfl | ⟨1, _⟩ => rfl)

/-- A rank-0 array spread over the column reads its one entry everywhere. -/
theorem splatCol_apply {α : Type} (s : S_.Idx → α) (i : Fin 100000) :
    broadcastInDim S100000x1 ![] bcast_S_S100000x1 s (ix2 i (0 : Fin 1)) = s ix0 :=
  broadcastInDim_apply ![] bcast_S_S100000x1 s (ix2 i (0 : Fin 1)) ix0 (fun a => a.elim0)

/-- The row sum, from zero, is the sum over the row. -/
theorem rowSum_apply (x : FVec Ideal S100000x128 .f32) (i : Fin 100000) :
    rowSum x (ix2 i (0 : Fin 1)) = ∑ k : Fin 128, x (ix2 i k) := by
  unfold rowSum
  refine (broadcastInDim_apply ![0] bcast_S100000_S100000x1_0 _ (ix2 i (0 : Fin 1)) (ix1 i)
    (fun a => match a with | ⟨0, _⟩ => rfl)).trans ?_
  show Ideal.hostReduceAdd reducesTo_S100000x128_S100000_d1 x (Ideal.ofBits .f32 0x00000000#32) (ix1 i) = _
  rw [Ideal.hostReduceAdd_single reducesTo_S100000x128_S100000_d1 (by decide : S100000x128.Reduces [1] S100000),
    Ideal.ofBits_zero_f32, zero_add]
  refine Finset.sum_congr rfl fun k _ => congrArg x ?_
  funext a; apply Fin.ext
  match a with
  | ⟨0, _⟩ => rfl
  | ⟨1, _⟩ => rfl

/-- The host's quotient and reciprocal root act entry by entry. -/
theorem hdivf_apply {s : Shape} (a b : FVec Ideal s .f32) (i : s.Idx) : Host.divf a b i = Ideal.div (a i) (b i) := rfl
theorem hrsqrt_apply {s : Shape} (a : FVec Ideal s .f32) (i : s.Idx) : Host.rsqrt a i = Ideal.rsqrt (a i) := rfl

/-- The row mean is the row sum over the literal 128. -/
theorem meanCol_apply (z : FVec Ideal S100000x128 .f32) (i : Fin 100000) :
    meanCol z (ix2 i (0 : Fin 1)) = Ideal.div (∑ k : Fin 128, z (ix2 i k)) Cert.Spec.c128 := by
  unfold meanCol c128B
  rw [hdivf_apply, rowSum_apply, splatCol_apply]
  rfl

/-- The variance's divisor, 128 less the integer zero, is 128. -/
theorem nrm_eq : (nrm (F := Ideal)) ix0 = Cert.Spec.c128 := by
  unfold nrm
  show Cert.Spec.c128 - ((((0#32 : BitVec 32).toInt : ℝ)) : EReal) = _
  simp

/-- The guard on the divisor holds: 128 is positive. -/
theorem guard_eq : cmpf .ogt (nrm (F := Ideal)) (constant S_ .f32 0x00000000#32) ix0 = 1#1 := by
  rw [cmpf_apply, nrm_eq, constant_apply, Ideal.cmpf_def, Ideal.ofBits_zero_f32, Cert.Spec.c128_eq]
  simp [Ideal.cmp]

/-- The row variance is the mean square deviation from the row mean. -/
theorem varCol_apply (z : FVec Ideal S100000x128 .f32) (i : Fin 100000) :
    varCol z (ix2 i (0 : Fin 1))
      = Ideal.div (∑ k : Fin 128, (z (ix2 i k) - Ideal.div (∑ k' : Fin 128, z (ix2 i k')) Cert.Spec.c128)
          * (z (ix2 i k) - Ideal.div (∑ k' : Fin 128, z (ix2 i k')) Cert.Spec.c128)) Cert.Spec.c128 := by
  unfold varCol
  rw [select_apply, splatCol_apply, guard_eq, select_one, hdivf_apply, rowSum_apply, splatCol_apply, nrm_eq]
  refine congrArg (fun t => Ideal.div t Cert.Spec.c128) (Finset.sum_congr rfl fun k _ => ?_)
  rw [mulf_apply, subf_apply, colB_apply, meanCol_apply]

/-- LayerNorm of the array at (i, j) is LayerNorm of row i at j. -/
theorem lnArr_apply (z : FVec Ideal S100000x128 .f32) (gamma beta : FVec Ideal S128 .f32) (i : Fin 100000) (j : Fin 128) :
    lnArr z gamma beta (ix2 i j) = Cert.Spec.lnRow (rowOf z i) (vecOf gamma) (vecOf beta) j := by
  unfold lnArr
  rw [addf_apply, mulf_apply, mulf_apply, subf_apply, colB_apply, colB_apply, meanCol_apply, rowB_apply, rowB_apply,
    hrsqrt_apply, addf_apply, varCol_apply, splatCol_apply]
  rfl

end Cert.ReferenceIdeal.RefValue

end
-- ==== Proof.Cross.lean ====
/-
  The two programs' ingredients are the same arrays. The kernel's aggregation is the reference's (the change of float
  format is the identity over the extended reals); multiplying a sum by the reciprocal degree is dividing it by the
  degree, the degree being non-zero; a scaled, transposed weight read at (k, j) is the branch scale times the transposed
  weight there; each branch scale is twice the logistic of its logit, a non-negative real. With these the kernel's
  result array `KG` is the reference's term `refTerm`, entry by entry.
-/
import proofs.«422799_j39273180955310_3_alg».proof.Proof.KerFinal
import proofs.«422799_j39273180955310_3_alg».proof.Proof.KerHost
import proofs.«422799_j39273180955310_3_alg».proof.Proof.KerRead
import proofs.«422799_j39273180955310_3_alg».proof.Proof.RefRead
import Idealize.ShloMosaic.Lib.ValueIdx
import Idealize.ShloMosaic.Lib.Pipeline.Value
import Idealize.ShloMosaic.PureOps.Ideal.Laws

noncomputable section

namespace Cert.Cross

open Cert.KernelIdeal Cert.KernelIdeal.Gen Cert.KernelIdeal.KerValue Idealize.ShloMosaic Idealize.ShloMosaic.TcCoe
  Idealize.ShloMosaic.ValueIdx

/-! ## Reads at an index -/

/-- The reciprocal-degree column at row i is `1 / deg i`. -/
theorem invdeg_apply (deg : FVec Ideal S100000 .f32) (i : Fin 100000) :
    invdeg deg (ix2 i 0) = Ideal.div Cert.Spec.one (deg (ix1 i)) := by
  unfold invdeg
  refine (shapeCast_apply _ _ (ix2 i 0) (ix1 i) (by rw [Shape.rowMajor_val_one, Shape.rowMajor_val_two]; show i.val = i.val * 1 + 0; omega)).trans ?_
  show Ideal.div (broadcastInDim S100000 ![] bcast_S_S100000 (constant (F := Ideal) S_ .f32 0x3F800000#32) (ix1 i)) (deg (ix1 i)) = _
  rw [broadcastInDim_apply _ _ _ (ix1 i) ix0 (fun a => a.elim0)]
  rfl

/-- The host's first-hop mean at (i, k): the sum there times the reciprocal degree of row i. -/
theorem nb1K_apply (S : FVec Ideal S100000x128 .f32) (deg : FVec Ideal S100000 .f32) (i : Fin 100000) (k : Fin 128) :
    nb1K S deg (ix2 i k) = S (ix2 i k) * invdeg deg (ix2 i 0) := by
  unfold nb1K
  show S (ix2 i k) * broadcastInDim S100000x128 ![0, 1] bcast_S100000x1_S100000x128_0_1 (invdeg deg) (ix2 i k) = _
  rw [broadcastInDim_apply _ _ _ (ix2 i k) (ix2 i 0) (fun a => match a with
    | ⟨0, _⟩ => by show i.val = (if (100000 : Nat) = 1 then 0 else i.val); rw [if_neg (by decide)]
    | ⟨1, _⟩ => by show 0 = (if (1 : Nat) = 1 then 0 else k.val); rw [if_pos rfl])]

/-- The degree column spread over the features, at (i, k): the degree of row i. -/
theorem degB_apply (deg : FVec Ideal S100000 .f32) (i : Fin 100000) (k : Fin 128) :
    Cert.ReferenceIdeal.RefValue.degB deg (ix2 i k) = deg (ix1 i) := by
  unfold Cert.ReferenceIdeal.RefValue.degB
  rw [broadcastInDim_apply _ _ _ (ix2 i k) (ix2 i 0) (fun a => match a with
    | ⟨0, _⟩ => by show i.val = (if (100000 : Nat) = 1 then 0 else i.val); rw [if_neg (by decide)]
    | ⟨1, _⟩ => by show 0 = (if (1 : Nat) = 1 then 0 else k.val); rw [if_pos rfl])]
  rw [broadcastInDim_apply _ _ _ (ix2 i 0) (ix1 i) (fun a => match a with
    | ⟨0, _⟩ => by show i.val = (if (100000 : Nat) = 1 then 0 else i.val); rw [if_neg (by decide)])]

/-- The reference's mean at (i, k): the sum there divided by the degree of row i. -/
theorem nb_apply (S : FVec Ideal S100000x128 .f32) (deg : FVec Ideal S100000 .f32) (i : Fin 100000) (k : Fin 128) :
    Cert.ReferenceIdeal.RefValue.nb S deg (ix2 i k) = Ideal.div (S (ix2 i k)) (deg (ix1 i)) := by
  show Ideal.div (S (ix2 i k)) (Cert.ReferenceIdeal.RefValue.degB deg (ix2 i k)) = _
  rw [degB_apply]

/-- Multiplying the sum by the reciprocal degree is the reference's mean, the degree being non-zero. -/
theorem mul_invdeg (S : FVec Ideal S100000x128 .f32) (deg : FVec Ideal S100000 .f32) (i : Fin 100000) (k : Fin 128)
    (hd : deg (ix1 i) ≠ 0) : S (ix2 i k) * invdeg deg (ix2 i 0) = Cert.ReferenceIdeal.RefValue.nb S deg (ix2 i k) := by
  rw [invdeg_apply, nb_apply, Cert.Spec.mul_recip_eq_div _ _ hd]

/-- So the host's first-hop mean is the reference's, as arrays. -/
theorem nb1K_eq_nb (S : FVec Ideal S100000x128 .f32) (deg : FVec Ideal S100000 .f32) (hd : ∀ i : Fin 100000, deg (ix1 i) ≠ 0) :
    nb1K S deg = Cert.ReferenceIdeal.RefValue.nb S deg := by
  funext y
  obtain ⟨i, k, rfl⟩ : ∃ (i : Fin 100000) (k : Fin 128), y = ix2 i k := ⟨y 0, y 1, eq_ix2 y⟩
  rw [nb1K_apply, mul_invdeg S deg i k (hd i)]

/-! ## The same terms in the two programs -/

/-- The kernel's aggregation is the reference's: over the extended reals the change of float format is the identity. -/
theorem aggK_eq_agg (e : IVec S2x1600000 32) (x : FVec Ideal S100000x128 .f32) :
    aggK e x = Cert.ReferenceIdeal.RefValue.agg e x := rfl

theorem scaleAt_eq (l : FVec Ideal S4 .f32) (off : Fin S4.rank → Nat) (hs : S4.Slices off S1) (hs' : Cert.ReferenceIdeal.S4.Slices off Cert.ReferenceIdeal.S1) :
    scaleAt l off hs = Cert.ReferenceIdeal.RefValue.scaleAt l off hs' := rfl

theorem transpose_eq (W : FVec Ideal S128x128 .f32) :
    transpose S128x128 [1, 0] W transposes_S128x128_S128x128_1_0 = Cert.ReferenceIdeal.RefValue.wT W := rfl

/-! ## The kernel's row is the reference's row -/

open Cert.ReferenceIdeal.RefValue (rowOf matOf vecOf) in
/-- Row i of the kernel's pre-normalisation array, over the host's named terms, is the reference's arrangement of that
    row over its own: the sums and means agree (above), and each non-negative real scale moves out of its sum. -/
theorem kzA_eq_zRow (h : FVec Ideal S100000x128 .f32) (e : IVec S2x1600000 32) (deg : FVec Ideal S100000 .f32)
    (Ws Wn1 Whp Wn2 : FVec Ideal S128x128 .f32) (bias : FVec Ideal S128 .f32) (l : FVec Ideal S4 .f32)
    (hd : ∀ i : Fin 100000, deg (ix1 i) ≠ 0) (i : Fin 100000) :
    kzA h (aggK e h) (aggK e (nb1K (aggK e h) deg)) (invdeg deg) (wK l ![0] slices_S4_S1_0 Ws) (wK l ![1] slices_S4_S1_1 Wn1)
        (wK l ![2] slices_S4_S1_2 Whp) (wK l ![3] slices_S4_S1_3 Wn2) (row1 bias) i
      = Cert.Spec.zRow (rowOf h i) (rowOf (Cert.ReferenceIdeal.RefValue.nb (Cert.ReferenceIdeal.RefValue.agg e h) deg) i)
          (rowOf (Cert.ReferenceIdeal.RefValue.nb (Cert.ReferenceIdeal.RefValue.agg e
            (Cert.ReferenceIdeal.RefValue.nb (Cert.ReferenceIdeal.RefValue.agg e h) deg)) deg) i)
          (matOf (Cert.ReferenceIdeal.RefValue.wT Ws)) (matOf (Cert.ReferenceIdeal.RefValue.wT Wn1))
          (matOf (Cert.ReferenceIdeal.RefValue.wT Whp)) (matOf (Cert.ReferenceIdeal.RefValue.wT Wn2)) (vecOf bias)
          (Cert.ReferenceIdeal.RefValue.scaleAt l ![0] Cert.ReferenceIdeal.Facts₀.slices_S4_S1_0 ix0)
          (Cert.ReferenceIdeal.RefValue.scaleAt l ![1] Cert.ReferenceIdeal.Facts₀.slices_S4_S1_1 ix0)
          (Cert.ReferenceIdeal.RefValue.scaleAt l ![2] Cert.ReferenceIdeal.Facts₀.slices_S4_S1_2 ix0)
          (Cert.ReferenceIdeal.RefValue.scaleAt l ![3] Cert.ReferenceIdeal.Facts₀.slices_S4_S1_3 ix0) := by
  rw [aggK_eq_agg, nb1K_eq_nb _ _ hd, aggK_eq_agg]
  obtain ⟨r0, h0, e0⟩ := Cert.Spec.scale_nonneg (l (ix1 0))
  obtain ⟨r1, h1, e1⟩ := Cert.Spec.scale_nonneg (l (ix1 1))
  obtain ⟨r2, h2, e2⟩ := Cert.Spec.scale_nonneg (l (ix1 2))
  obtain ⟨r3, h3, e3⟩ := Cert.Spec.scale_nonneg (l (ix1 3))
  have s0 : scaleAt l ![0] slices_S4_S1_0 ix0 = (r0 : EReal) := (scaleAt_apply l 0 _ _ rfl).trans e0
  have s1 : scaleAt l ![1] slices_S4_S1_1 ix0 = (r1 : EReal) := (scaleAt_apply l 1 _ _ rfl).trans e1
  have s2 : scaleAt l ![2] slices_S4_S1_2 ix0 = (r2 : EReal) := (scaleAt_apply l 2 _ _ rfl).trans e2
  have s3 : scaleAt l ![3] slices_S4_S1_3 ix0 = (r3 : EReal) := (scaleAt_apply l 3 _ _ rfl).trans e3
  rw [← scaleAt_eq l ![0] slices_S4_S1_0, ← scaleAt_eq l ![1] slices_S4_S1_1, ← scaleAt_eq l ![2] slices_S4_S1_2,
    ← scaleAt_eq l ![3] slices_S4_S1_3, s0, s1, s2, s3, ← Cert.Spec.zRowK_eq_zRow _ _ _ _ _ _ _ _ r0 r1 r2 r3 h0 h1 h2 h3]
  funext j'
  simp only [kzA, Cert.Spec.zRowK, rowOf, matOf, vecOf, wK_apply, s0, s1, s2, s3, mul_invdeg _ _ _ _ (hd i), row1_apply]
  rfl

/-! ## The result arrays -/

/-- The kernel's result array is the reference's term of the same argument arrays, entry by entry, no degree being zero. -/
theorem KG_eq_refTerm (m : (ℓ : Loc nD τ sig) → Buf (Elt Ideal) ℓ) (c : Dev nD) (hd : ∀ i : Fin 100000, aDeg m c (ix1 i) ≠ 0) :
    KG m c = Cert.ReferenceIdeal.RefValue.refTerm (aH m c) (aE m c) (aDeg m c) (aWs m c) (aWn1 m c) (aWhp m c) (aWn2 m c)
      (aBias m c) (aLogits m c) (aGamma m c) (aBeta m c) := by
  funext y
  obtain ⟨i, j, rfl⟩ : ∃ (i : Fin 100000) (j : Fin 128), y = ix2 i j := ⟨y 0, y 1, eq_ix2 y⟩
  unfold Cert.ReferenceIdeal.RefValue.refTerm
  rw [Cert.ReferenceIdeal.RefValue.lnArr_apply, Cert.ReferenceIdeal.RefValue.zArr_row]
  unfold KG
  rw [V_main_arg0, V_v18, V_v32, V_v6, V_v46, V_v52, V_v58, V_v64, V_v65, V_v66, V_v67]
  show Cert.Spec.lnRow (kzA (aH m c) (aggK (aE m c) (aH m c)) (aggK (aE m c) (nb1K (aggK (aE m c) (aH m c)) (aDeg m c)))
      (invdeg (aDeg m c)) (wK (aLogits m c) ![0] slices_S4_S1_0 (aWs m c)) (wK (aLogits m c) ![1] slices_S4_S1_1 (aWn1 m c))
      (wK (aLogits m c) ![2] slices_S4_S1_2 (aWhp m c)) (wK (aLogits m c) ![3] slices_S4_S1_3 (aWn2 m c)) (row1 (aBias m c)) i)
      (fun j' => row1 (aGamma m c) (ix2 0 j')) (fun j' => row1 (aBeta m c) (ix2 0 j')) j = _
  rw [kzA_eq_zRow _ _ _ _ _ _ _ _ _ hd i]
  simp only [row1_apply]
  rfl

end Cert.Cross

end
-- ==== Proof.PreRead.lean ====
/-
  What the precondition says of the degrees. Its last conjunct is `all (deg ≠ 0)`: a reduction by `and` of the
  element-wise comparison of the degree vector with zero; the whole predicate being true, that reduction is true, so
  every degree differs from zero.
-/
import proofs.«422799_j39273180955310_3_alg».proof.Pre_finite_inputs
import Idealize.ShloMosaic.Lib.ReduceAll
import Idealize.ShloMosaic.Lib.ValueIdx
import Idealize.ShloMosaic.PureOps.Ideal.Laws

noncomputable section

namespace Cert.PreRead

open Cert.Pre_finite_inputs Idealize.ShloMosaic Idealize.ShloMosaic.ValueIdx

variable [Cert.Pre_finite_inputs.Facts]

instance : Subsingleton S_.Idx := ⟨fun a b => funext fun d => d.elim0⟩

/-- Under the precondition no degree is zero. -/
theorem deg_ne_zero (a0 : FVec Ideal S100000x128 .f32) (a1 : IVec S2x1600000 32) (a2 : FVec Ideal S100000 .f32)
    (a3 a4 a5 a6 : FVec Ideal S128x128 .f32) (a7 : FVec Ideal S128 .f32) (a8 : FVec Ideal S4 .f32) (a9 a10 : FVec Ideal S128 .f32)
    (h : Cert.Pre_finite_inputs.fn (F := Ideal) a0 a1 a2 a3 a4 a5 a6 a7 a8 a9 a10 = fun _ => 1#1) (i : S100000.Idx) :
    a2 i ≠ 0 := by
  have h0 := congrFun h ix0
  dsimp only [fn, fn_part1, fn_part2, fn_part3] at h0
  have h1 := (IntOp.andi_eq_one.1 h0).2
  have h2 := Host.reduce_andi_all _ _ _ _ _ h1 i
  intro hz
  have h3 : Ideal.cmp .une (a2 i) (Ideal.ofBits .f32 0x00000000#32) = 1#1 := h2
  rw [hz, Ideal.ofBits_zero_f32] at h3
  simp [Ideal.cmp] at h3

end Cert.PreRead

end
-- ==== Proof.lean ====
/-
  The five claims of this certificate, assembled.

  The kernel computes, per node i, LayerNorm of
      z j = Σ_k h(i,k)·(s₀·Wself(j,k)) + Σ_k n1(i,k)·(s₁·Wnb1(j,k)) + Σ_k (h − n1)(i,k)·(s₂·Whp(j,k)) + Σ_k n2(i,k)·(s₃·Wnb2(j,k)) + b j
  with n1 = S1 · (1 / deg), n2 = S2 · (1 / deg), S1 the sum of h over incoming edges and S2 that of n1, the scales
  s = 2·logistic(logit) folded into the weights; the reference computes LayerNorm of
      z j = s₀·Σ_k h(i,k)·Wself(j,k) + s₁·Σ_k n1(i,k)·Wnb1(j,k) + s₂·Σ_k (h − n1)(i,k)·Whp(j,k) + s₃·Σ_k n2(i,k)·Wnb2(j,k) + b j
  with n1 = S1 / deg, n2 = S2 / deg. Over the extended reals the two agree: the aggregation is one function in both
  programs; x · (1 / d) = x / d for d ≠ 0, which the precondition gives for every degree; each scale is a non-negative
  real and so moves out of its sum whatever the summands. The frames are the generated ones; the reference's frame is
  its run with the result dropped; the idealization rewrote nothing.
-/
import proofs.«422799_j39273180955310_3_alg».proof.Defs
import proofs.«422799_j39273180955310_3_alg».proof.Proof.Gen.Kernel
import proofs.«422799_j39273180955310_3_alg».proof.Proof.Gen.Kernel.Skeleton
import proofs.«422799_j39273180955310_3_alg».proof.Proof.Gen.Kernel.Launch
import proofs.«422799_j39273180955310_3_alg».proof.Proof.Gen.Kernel.Points
import proofs.«422799_j39273180955310_3_alg».proof.Proof.Gen.Kernel.Frame
import proofs.«422799_j39273180955310_3_alg».proof.Proof.Gen.KernelIdeal
import proofs.«422799_j39273180955310_3_alg».proof.Proof.Gen.KernelIdeal.Skeleton
import proofs.«422799_j39273180955310_3_alg».proof.Proof.Gen.KernelIdeal.Launch
import proofs.«422799_j39273180955310_3_alg».proof.Proof.Gen.KernelIdeal.Points
import proofs.«422799_j39273180955310_3_alg».proof.Proof.Gen.KernelIdeal.Frame
import proofs.«422799_j39273180955310_3_alg».proof.Proof.Gen.KernelIdeal.Value
import proofs.«422799_j39273180955310_3_alg».proof.Proof.Gen.ReferenceIdeal
import proofs.«422799_j39273180955310_3_alg».proof.Proof.Gen.Pre_finite_inputs
import proofs.«422799_j39273180955310_3_alg».proof.Proof.RefRun
import proofs.«422799_j39273180955310_3_alg».proof.Proof.Cross
import proofs.«422799_j39273180955310_3_alg».proof.Proof.PreRead
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The idealization rewrote nothing. -/
theorem preserves : Cert.preserves_Kernel_KernelIdeal := trivial

/-- From memories agreeing on the arguments, both programs end with the same array: the kernel's entry-by-entry value
    is the reference's term, every degree being non-zero under the precondition. -/
theorem algebraic : Cert.algebraic_KernelIdeal_ReferenceIdeal := by
  intro m ρ m' ρ' hpre hagree
  refine ⟨fun c => Cert.KernelIdeal.KerValue.KG m c, Cert.KernelIdeal.KerValue.run_KG m ρ, ?_⟩
  refine (θ_run Cert.ReferenceIdeal.defs _ _).mono (fun _ h c => ⟨(h c).1.trans ?_, (h c).2⟩)
    (Cert.ReferenceIdeal.RefValue.run (F := Ideal) m' ρ')
  obtain ⟨a0, a1, a2, a3, a4, a5, a6, a7, a8, a9, a10⟩ := hagree c
  rw [a0, a1, a2, a3, a4, a5, a6, a7, a8, a9, a10]
  exact (Cert.Cross.KG_eq_refTerm m c fun i => Cert.PreRead.deg_ne_zero _ _ _ _ _ _ _ _ _ _ _ (hpre c) (ix1 i)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
